-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1000000 : Shape := ⟨2, ![64, 1000000]⟩
abbrev S_ : Shape := ⟨0, ![]⟩

class Facts : Prop where
  bcast_S_S64x1000000 : S_.BroadcastsInDim S64x1000000 (![] : Fin 0 → Fin S64x1000000.rank)
  reducesTo_S64x1000000_S_d0_1 : S64x1000000.ReducesTo [0, 1] S_
  h_S_ : 0 < S_.numel

variable [Facts]

def fn {F : FTy → Type} [FloatOps F] (main_arg0 : FVec F S64x1000000 .f32) : IVec S_ 1 :=
  let main_v0 : FVec F S64x1000000 .f32 := Host.absf main_arg0
  let main_cst : FVec F S_ .f32 := constant S_ .f32 0x7F800000#32
  let main_v1 : FVec F S64x1000000 .f32 := broadcastInDim S64x1000000 ![] bcast_S_S64x1000000 main_cst
  let main_v2 : IVec S64x1000000 1 := cmpf .olt main_v0 main_v1
  let main_c : IVec S_ 1 := constantI S_ 1 1#1
  let main_v3 : IVec S_ 1 := (fun x v => Host.reduce IntOp.andi x v reducesTo_S64x1000000_S_d0_1 h_S_) main_v2 main_c
  let main_cst_0 : FVec F S_ .f32 := constant S_ .f32 0x00000000#32
  let main_v4 : FVec F S64x1000000 .f32 := broadcastInDim S64x1000000 ![] bcast_S_S64x1000000 main_cst_0
  let main_v5 : IVec S64x1000000 1 := cmpf .oge main_arg0 main_v4
  let main_c_1 : IVec S_ 1 := constantI S_ 1 1#1
  let main_v6 : IVec S_ 1 := (fun x v => Host.reduce IntOp.andi x v reducesTo_S64x1000000_S_d0_1 h_S_) main_v5 main_c_1
  let main_v7 : IVec S_ 1 := andi main_v3 main_v6
  let main_cst_2 : FVec F S_ .f32 := constant S_ .f32 0x3F800000#32
  let main_v8 : FVec F S64x1000000 .f32 := broadcastInDim S64x1000000 ![] bcast_S_S64x1000000 main_cst_2
  let main_v9 : IVec S64x1000000 1 := cmpf .olt main_arg0 main_v8
  let main_c_3 : IVec S_ 1 := constantI S_ 1 1#1
  let main_v10 : IVec S_ 1 := (fun x v => Host.reduce IntOp.andi x v reducesTo_S64x1000000_S_d0_1 h_S_) main_v9 main_c_3
  let main_v11 : IVec S_ 1 := andi main_v7 main_v10
  main_v11
-- ==== Kernel.lean ====
abbrev S64x1000000 : Shape := ⟨2, ![64, 1000000]⟩
abbrev S_ : Shape := ⟨0, ![]⟩
abbrev S64x1007616 : Shape := ⟨2, ![64, 1007616]⟩
abbrev S64x20 : Shape := ⟨2, ![64, 20]⟩
abbrev S32x8192 : Shape := ⟨2, ![32, 8192]⟩
abbrev S32x20 : Shape := ⟨2, ![32, 20]⟩
abbrev S32 : Shape := ⟨1, ![32]⟩
abbrev S32x1 : Shape := ⟨2, ![32, 1]⟩

abbrev nBuf : Space → Nat
  | .hbm => 26
  | .vmem => 4
  | .smem => 0
  | _ => 0

abbrev bufTy : (tb : Table) → Fin (tcTables nBuf tb) → BufTy
  | .hbm, ⟨0, _⟩ => ⟨S64x1000000, .f32⟩
  | .hbm, ⟨1, _⟩ => ⟨S_, .f32⟩
  | .hbm, ⟨2, _⟩ => ⟨S_, .f32⟩
  | .hbm, ⟨3, _⟩ => ⟨S64x1007616, .f32⟩
  | .hbm, ⟨4, _⟩ => ⟨S64x20, .f32⟩
  | .hbm, ⟨5, _⟩ => ⟨S_, .f32⟩
  | .hbm, ⟨6, _⟩ => ⟨S64x20, .f32⟩
  | .hbm, ⟨7, _⟩ => ⟨S64x20, .f32⟩
  | .hbm, ⟨8, _⟩ => ⟨S_, .f32⟩
  | .hbm, ⟨9, _⟩ => ⟨S64x20, .f32⟩
  | .hbm, ⟨10, _⟩ => ⟨S64x20, .f32⟩
  | .hbm, ⟨11, _⟩ => ⟨S_, .f32⟩
  | .hbm, ⟨12, _⟩ => ⟨S64x20, .f32⟩
  | .hbm, ⟨13, _⟩ => ⟨S64x20, .i1⟩
  | .hbm, ⟨14, _⟩ => ⟨S64x20, .f32⟩
  | .hbm, ⟨15, _⟩ => ⟨S64x20, .f32⟩
  | .hbm, ⟨16, _⟩ => ⟨S_, .f32⟩
  | .hbm, ⟨17, _⟩ => ⟨S_, .f32⟩
  | .hbm, ⟨18, _⟩ => ⟨S64x20, .f32⟩
  | .hbm, ⟨19, _⟩ => ⟨S64x20, .f32⟩
  | .hbm, ⟨20, _⟩ => ⟨S64x20, .f32⟩
  | .hbm, ⟨21, _⟩ => ⟨S_, .f32⟩
  | .hbm, ⟨22, _⟩ => ⟨S64x20, .f32⟩
  | .hbm, ⟨23, _⟩ => ⟨S64x20, .f32⟩
  | .hbm, ⟨24, _⟩ => ⟨S_, .f32⟩
  | .hbm, ⟨25, _⟩ => ⟨S_, .f32⟩
  | .local _ .vmem, ⟨0, _⟩ => ⟨S32x8192, .f32⟩
  | .local _ .vmem, ⟨1, _⟩ => ⟨S32x8192, .f32⟩
  | .local _ .vmem, ⟨2, _⟩ => ⟨S32x20, .f32⟩
  | .local _ .vmem, ⟨3, _⟩ => ⟨S32x20, .f32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_call1_v0 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 123], ![false, false]⟩

def k0_cond1 (i : grid0.Coords) : BitVec 1 :=
  let arg1 : BitVec 32 := BitVec.ofNat 32 (i 1).val
  let c0_i32_21 : BitVec 32 := 0#32
  let v127 : BitVec 1 := Scalar.cmpi .eq arg1 c0_i32_21
  let v128 : BitVec 32 := Scalar.extui v127
  let c0_i32_22 : BitVec 32 := 0#32
  let v129 : BitVec 1 := Scalar.cmpi .ne v128 c0_i32_22
  v129

def k0_cond2 (i : grid0.Coords) : BitVec 1 :=
  let arg1 : BitVec 32 := BitVec.ofNat 32 (i 1).val
  let c0_i32_23 : BitVec 32 := 0#32
  let v130 : BitVec 1 := Scalar.cmpi .ne arg1 c0_i32_23
  let v131 : BitVec 32 := Scalar.extui v130
  let c0_i32_24 : BitVec 32 := 0#32
  let v132 : BitVec 1 := Scalar.cmpi .ne v131 c0_i32_24
  v132

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  pads_S64x1000000_S64x1007616_000_076160 : S64x1000000.Pads (![0, 0] : Fin 2 → Nat) ![0, 7616] ![0, 0] S64x1007616
  h_S_ : 0 < S_.numel
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  natLt_1_32 : 1 < 32
  reduces_S32x8192_S32 : S32x8192.Reduces [1] S32
  shapeCasts_S32_S32x1 : S32.ShapeCasts S32x1
  concatenates_S32x1_S32x1_S32x1_S32x1_S32x1_S32x1_S32x1_S32x1_S32x1_S32x1_S32x1_S32x1_S32x1_S32x1_S32x1_S32x1_S32x1_S32x1_S32x1_S32x1_S32x20_d1 : Shape.Concatenates [S32x1, S32x1, S32x1, S32x1, S32x1, S32x1, S32x1, S32x1, S32x1, S32x1, S32x1, S32x1, S32x1, S32x1, S32x1, S32x1, S32x1, S32x1, S32x1, S32x1] S32x20 1
  inb_S32x20_S32x20_0_0 : ∀ a, (![0, 0] : Fin 2 → Nat) a + S32x20.size a ≤ S32x20.size a
  h_S32x20 : 0 < S32x20.numel
  shapeCasts_S32x20_S32x20 : S32x20.ShapeCasts S32x20
  bcast_S_S64x20 : S_.BroadcastsInDim S64x20 (![] : Fin 0 → Fin S64x20.rank)
  reducesTo_S64x20_S_d0_1 : S64x20.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x8192.size a ≤ S64x1007616.size a
  hwx0_0 : ∀ i : grid0.Coords, EltTy.bits .f32 = 32 ∨ (Rect.block (s := S64x1007616) S32x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x20.size a ≤ S64x20.size a
  hwx0_1 : ∀ i : grid0.Coords, EltTy.bits .f32 = 32 ∨ (Rect.block (s := S64x20) S32x20.size (cc0_transform_1 i) (hinb0_1 i)).WholeWords (EltTy.packing .f32)

variable [Facts₀]

abbrev win0_0 : Pipeline.Window sig grid0 :=
  Pipeline.Window.ofSpec (Memref.whole main_v0) S32x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x20.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

class Facts : Prop extends Facts₀ where

variable [Facts]
-- ==== ReferenceIdeal.lean ====
abbrev S64x1000000 : Shape := ⟨2, ![64, 1000000]⟩
abbrev S_ : Shape := ⟨0, ![]⟩
abbrev S64 : Shape := ⟨1, ![64]⟩
abbrev S64x1 : Shape := ⟨2, ![64, 1]⟩
abbrev S64000000 : Shape := ⟨1, ![64000000]⟩
abbrev S1280 : Shape := ⟨1, ![1280]⟩
abbrev S64000000x1 : Shape := ⟨2, ![64000000, 1]⟩
abbrev S64x20 : Shape := ⟨2, ![64, 20]⟩

abbrev nBuf : Space → Nat
  | .hbm => 42
  | .vmem => 0
  | .smem => 0
  | _ => 0

abbrev bufTy : (tb : Table) → Fin (tcTables nBuf tb) → BufTy
  | .hbm, ⟨0, _⟩ => ⟨S64x1000000, .f32⟩
  | .hbm, ⟨1, _⟩ => ⟨S_, .f32⟩
  | .hbm, ⟨2, _⟩ => ⟨S64x1000000, .f32⟩
  | .hbm, ⟨3, _⟩ => ⟨S64x1000000, .f32⟩
  | .hbm, ⟨4, _⟩ => ⟨S64x1000000, .f32⟩
  | .hbm, ⟨5, _⟩ => ⟨S64x1000000, .i32⟩
  | .hbm, ⟨6, _⟩ => ⟨S64, .i32⟩
  | .hbm, ⟨7, _⟩ => ⟨S64x1, .i32⟩
  | .hbm, ⟨8, _⟩ => ⟨S_, .i32⟩
  | .hbm, ⟨9, _⟩ => ⟨S64x1, .i32⟩
  | .hbm, ⟨10, _⟩ => ⟨S64x1, .i32⟩
  | .hbm, ⟨11, _⟩ => ⟨S64x1000000, .i32⟩
  | .hbm, ⟨12, _⟩ => ⟨S64x1000000, .i32⟩
  | .hbm, ⟨13, _⟩ => ⟨S64000000, .i32⟩
  | .hbm, ⟨14, _⟩ => ⟨S_, .f32⟩
  | .hbm, ⟨15, _⟩ => ⟨S64000000, .f32⟩
  | .hbm, ⟨16, _⟩ => ⟨S_, .f32⟩
  | .hbm, ⟨17, _⟩ => ⟨S1280, .f32⟩
  | .hbm, ⟨18, _⟩ => ⟨S64000000x1, .i32⟩
  | .hbm, ⟨19, _⟩ => ⟨S1280, .f32⟩
  | .hbm, ⟨20, _⟩ => ⟨S64x20, .f32⟩
  | .hbm, ⟨21, _⟩ => ⟨S_, .f32⟩
  | .hbm, ⟨22, _⟩ => ⟨S64x20, .f32⟩
  | .hbm, ⟨23, _⟩ => ⟨S64x20, .f32⟩
  | .hbm, ⟨24, _⟩ => ⟨S_, .f32⟩
  | .hbm, ⟨25, _⟩ => ⟨S64x20, .f32⟩
  | .hbm, ⟨26, _⟩ => ⟨S64x20, .f32⟩
  | .hbm, ⟨27, _⟩ => ⟨S_, .f32⟩
  | .hbm, ⟨28, _⟩ => ⟨S64x20, .f32⟩
  | .hbm, ⟨29, _⟩ => ⟨S64x20, .i1⟩
  | .hbm, ⟨30, _⟩ => ⟨S64x20, .f32⟩
  | .hbm, ⟨31, _⟩ => ⟨S64x20, .f32⟩
  | .hbm, ⟨32, _⟩ => ⟨S_, .f32⟩
  | .hbm, ⟨33, _⟩ => ⟨S_, .f32⟩
  | .hbm, ⟨34, _⟩ => ⟨S64x20, .f32⟩
  | .hbm, ⟨35, _⟩ => ⟨S64x20, .f32⟩
  | .hbm, ⟨36, _⟩ => ⟨S64x20, .f32⟩
  | .hbm, ⟨37, _⟩ => ⟨S_, .f32⟩
  | .hbm, ⟨38, _⟩ => ⟨S64x20, .f32⟩
  | .hbm, ⟨39, _⟩ => ⟨S64x20, .f32⟩
  | .hbm, ⟨40, _⟩ => ⟨S_, .f32⟩
  | .hbm, ⟨41, _⟩ => ⟨S_, .f32⟩
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_call0_v0 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S_S64x1000000 : S_.BroadcastsInDim S64x1000000 (![] : Fin 0 → Fin S64x1000000.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x1000000_0_1 : S64x1.BroadcastsInDim S64x1000000 (![0, 1] : Fin 2 → Fin S64x1000000.rank)
  shapeCasts_S64x1000000_S64000000 : S64x1000000.ShapeCasts S64000000
  bcast_S_S64000000 : S_.BroadcastsInDim S64000000 (![] : Fin 0 → Fin S64000000.rank)
  bcast_S_S1280 : S_.BroadcastsInDim S1280 (![] : Fin 0 → Fin S1280.rank)
  bcast_S64000000_S64000000x1_0 : S64000000.BroadcastsInDim S64000000x1 (![0] : Fin 1 → Fin S64000000x1.rank)
  shapeCasts_S1280_S64x20 : S1280.ShapeCasts S64x20
  bcast_S_S64x20 : S_.BroadcastsInDim S64x20 (![] : Fin 0 → Fin S64x20.rank)
  reducesTo_S64x20_S_d0_1 : S64x20.ReducesTo [0, 1] S_
  h_S_ : 0 < S_.numel
  scatter_S1280_S64000000x1_S64000000_n_0_0_1_wf : ScatterDims.WF S1280 S64000000x1 S64000000 [] [0] [0] 1

variable [Facts₀]

def scatter_S1280_S64000000x1_S64000000_n_0_0_1 : ScatterDims S1280 S64000000x1 S64000000 where
  updateWindowDims := []
  insertedWindowDims := [0]
  scatterDimsToOperandDims := [0]
  indexVectorDim := 1
  wf := scatter_S1280_S64000000x1_S64000000_n_0_0_1_wf

class Facts : Prop extends Facts₀ where

variable [Facts]
-- ==== Proof.KDefs.lean ====
/-
  What one grid point of the kernel computes, named.

  `cnt x0` is the 32×20 block the body builds from its 32×8192 block of scores `x0`: column `q` is, row by row, the lane sum of
  the 0/1 mask "the score's bin is `q`" — twenty masks, twenty lane sums, set side by side. `xblk c t` is the block of the
  widened score array that grid point `t` is handed.
-/
import proofs.«107489_j73744588472820_1_alg».proof.Proof.Gen.Kernel.Skeleton
import proofs.«107489_j73744588472820_1_alg».proof.Proof.Gen.Kernel.Frame

noncomputable section

namespace Cert.Kernel.Hist

open Cert.Kernel Cert.Kernel.Gen
open Idealize.ShloMosaic Idealize.ShloMosaic.TcCoe Idealize.SL.Sem

variable {F : FTy → Type} [FloatOps F]

/-- The per-point histogram block: the body's twenty lane sums of bin masks, side by side. -/
def cnt (x0 : Vec F S32x8192 .f32) : FVec F S32x20 .f32 :=
  k0_pay17 (k0_pay2 x0) (k0_pay3 x0) (k0_pay4 x0) (k0_pay5 x0) (k0_pay6 x0) (k0_pay7 x0) (k0_pay8 x0)
    (k0_pay9 (k0_pay2 x0) 6#32) (k0_pay10 (k0_pay2 x0)) (k0_pay11 (k0_pay2 x0)) (k0_pay12 (k0_pay2 x0))
    (k0_pay13 (k0_pay2 x0)) (k0_pay14 (k0_pay2 x0)) (k0_pay15 (k0_pay2 x0)) (k0_pay16 (k0_pay2 x0))

variable (m : (ℓ : Loc nD τ sig) → Buf (Elt F) ℓ)

/-- The block of scores grid point `t` is handed, at its literal type. -/
abbrev xblk (c : Dev nD) (t : Fin cfg0.N) : Vec F S32x8192 .f32 := iblk m c 0 t

end Cert.Kernel.Hist

end
-- ==== Proof.KBody.lean ====
/-
  The kernel's run: what its output staging buffer holds after every grid point, and that the program runs.

  The grid is walked row by row, a row being 123 consecutive points. At a row's first point the body stores the histogram
  of the point's block of scores into the output's staging buffer; at every later point of the row it adds the block's
  histogram to what the buffer holds; the buffer is written back at the row's last point. One of the body's two
  conditions holds at every point, so the buffer is stored into at every point.
-/
import proofs.«107489_j73744588472820_1_alg».proof.Proof.KDefs
import Idealize.ShloMosaic.Lib.Pipeline.Value

set_option maxRecDepth 16384

noncomputable section

namespace Cert.Kernel.Hist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's conditions over the grid -/

/-- The first conditional's condition holds exactly at a row's first point. -/
theorem body_cond1_iff : ∀ t : Fin cfg0.N, k0_cond1 (grid0.coords t) = 1#1 ↔ t.val % 123 = 0 :=
  (by decide +kernel : ∀ t : Fin grid0.N, k0_cond1 (grid0.coords t) = 1#1 ↔ t.val % 123 = 0)

/-- The second's holds exactly at the other points. -/
theorem body_cond2_iff : ∀ t : Fin cfg0.N, k0_cond2 (grid0.coords t) = 1#1 ↔ t.val % 123 ≠ 0 :=
  (by decide +kernel : ∀ t : Fin grid0.N, k0_cond2 (grid0.coords t) = 1#1 ↔ t.val % 123 ≠ 0)

/-- The input window is idle nowhere. -/
theorem body_live0 : ∀ i : grid0.Coords, cfg0.idle 0 i = false := fun _ => rfl

/-- One of the two conditions holds at every setting of the coordinates: the output window is idle nowhere. -/
theorem body_live1 : ∀ i : grid0.Coords, cfg0.idle 1 i = false :=
  (by decide +kernel : ∀ i : grid0.Coords, idle0 1 i = false)

/-- The output window's block is cut nowhere. -/
theorem body_noclip1 : ∀ (i : cfg0.grid.Coords) a, (cfg0.win 1).clip i a = none := by decide +kernel

/-! ## The body on any whole staging memrefs -/

/-- The zero offsets of a two-axis rectangle, as a function. -/
theorem body_hz2 : (![0, 0] : Fin 2 → Nat) = fun _ => 0 := by funext a; fin_cases a <;> rfl

set_option maxHeartbeats 1000000 in
/-- The body at a row's first point, on any whole staging memrefs: from the scores' block `x0` and anything in the
    output's buffer it runs to the block in place and the output's buffer at the block's histogram. -/
theorem body_first (c : Dev nD) (i : grid0.Coords) (arg2 : Memref sig .tc .vmem S32x8192 .f32) (harg2 : arg2.IsWhole)
    (arg3 : Memref sig .tc .vmem S32x20 .f32) (harg3 : arg3.IsWhole) (h1 : k0_cond1 i = 1#1) (h2 : ¬k0_cond2 i = 1#1)
    (x0 : Vec F S32x8192 .f32) (E : Set ℕ) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (cnt x0)) -∗ K ⟨⟩))
      ⊢ wp frame (wpE (defs₀ (F := F)) Variants.none c none) E (cc0__hist_kernel i arg2 harg2 arg3 harg3) K := by
  simp only [cc0__hist_kernel_eq_skeleton]; unfold cc0__hist_kernel_skel
  unfold owns
  iintro ⟨⟨%f0, %hf0, H0⟩, ⟨%d1, %f1, -, H1⟩, Hk⟩
  obtain rfl := harg2.eq_unread hf0
  sl_exec (disch := first | exact h1 | exact h2)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_singleton_self _, View.mem_set_unit_zero body_hz2 inb_S32x20_S32x20_0_0 y⟩),
    View.canon_unit_zero body_hz2]
  unfold cnt
  sl_unfold_words
  simp only [View.readAt_eq_ld, harg2.read_unread, View.ld_unit_zero (S := S32x8192) body_hz2]

set_option maxHeartbeats 1000000 in
/-- The body at a later point of a row: from the block `x0` and the output's buffer at `acc` it runs to the block in
    place and the buffer at the block's histogram added to `acc`. -/
theorem body_later (c : Dev nD) (i : grid0.Coords) (arg2 : Memref sig .tc .vmem S32x8192 .f32) (harg2 : arg2.IsWhole)
    (arg3 : Memref sig .tc .vmem S32x20 .f32) (harg3 : arg3.IsWhole) (h1 : ¬k0_cond1 i = 1#1) (h2 : k0_cond2 i = 1#1)
    (x0 : Vec F S32x8192 .f32) (acc : Vec F S32x20 .f32) (E : Set ℕ) (K : PUnit → sProp 𝕄) :
    iprop(owns (c : Thread nD τ) arg2 fullShare x0 ∗ owns (c : Thread nD τ) arg3 fullShare acc
        ∗ (iprop(owns (c : Thread nD τ) arg2 fullShare x0 ∗ owns (c : Thread nD τ) arg3 fullShare (k0_pay1 (cnt x0) acc)) -∗ K ⟨⟩))
      ⊢ wp frame (wpE (defs₀ (F := F)) Variants.none c none) E (cc0__hist_kernel i arg2 harg2 arg3 harg3) K := by
  simp only [cc0__hist_kernel_eq_skeleton]; unfold cc0__hist_kernel_skel
  unfold owns
  iintro ⟨⟨%f0, %hf0, H0⟩, ⟨%f1, %hf1, H1⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_singleton_self _, View.mem_set_unit_zero body_hz2 inb_S32x20_S32x20_0_0 y⟩),
    View.canon_unit_zero body_hz2]
  unfold cnt
  sl_unfold_words
  simp only [View.readAt_eq_ld, harg2.read_unread, harg3.read_unread, View.ld_unit_zero (S := S32x8192) body_hz2, View.ld_unit_zero (S := S32x20) body_hz2]

/-! ## What the output's buffer holds point by point, and the proof data -/

/-- What the output's staging buffer holds after grid point `n` (points are walked in order; a row of the grid is 123
    consecutive points): at a row's first point the point's own block histogram, afterwards the point's added to what
    the point before left. -/
def accAt (c : Dev nD) : (n : ℕ) → n < cfg0.N → Vec F S32x20 .f32
  | 0, hn => cnt (xblk m c ⟨0, hn⟩)
  | n + 1, hn =>
    if (n + 1) % 123 = 0 then cnt (xblk m c ⟨n + 1, hn⟩)
    else k0_pay1 (cnt (xblk m c ⟨n + 1, hn⟩)) (accAt c n (Nat.lt_of_succ_lt hn))

theorem accAt_first (c : Dev nD) (t : Fin cfg0.N) (h : t.val % 123 = 0) :
    accAt m c t.val t.isLt = cnt (xblk m c t) := by
  obtain ⟨n, hn⟩ := t
  cases n with
  | zero => rfl
  | succ n => exact (if_pos h).trans rfl

theorem accAt_later (c : Dev nD) (t : Fin cfg0.N) (h : t.val % 123 ≠ 0) :
    accAt m c t.val t.isLt
      = k0_pay1 (cnt (xblk m c t)) (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = accAt m c t.val t.isLt := by dsimp only [dats]

/-! ## The body obligation -/

/-- The scores' staging buffer holds the point's block at every point. -/
theorem body_before0 (c : Dev nD) (t : Fin cfg0.N) (d) : (dats m 0 c).before 0 t d = xblk m c t :=
  before0_0_of m (dats m 0 c) (A_eq m c 0) (after0_0 m c) t d

/-- The point before a later point of a row does not write the output's block back. -/
theorem body_noflush_before (t : Fin cfg0.N) (h : t.val % 123 ≠ 0) :
    (cfg0.win 1).flush ⟨t.val - 1, Nat.lt_of_le_of_lt (Nat.sub_le _ _) t.isLt⟩ = false := by
  apply Bool.eq_false_iff.mpr
  intro hf
  have := (flush0_1 ⟨t.val - 1, Nat.lt_of_le_of_lt (Nat.sub_le _ _) t.isLt⟩).mp hf
  dsimp only at this
  omega

/-- At a later point of a row the output's staging buffer holds what the point before left. -/
theorem body_before1_later (c : Dev nD) (t : Fin cfg0.N) (h : t.val % 123 ≠ 0) (d) :
    (dats m 0 c).before 1 t d = accAt m c (t.val - 1) (Nat.lt_of_le_of_lt (Nat.sub_le _ _) t.isLt) :=
  ((dats m 0 c).before_out_kept 1 rfl t (fun h0 => h (by rw [h0])) (body_noflush_before t h) body_live1 body_noclip1 d).trans
    (after0_1 m c ⟨t.val - 1, Nat.lt_of_le_of_lt (Nat.sub_le _ _) t.isLt⟩)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

theorem body_leaves0 (c : Dev nD) (t : Fin cfg0.N) :
    (dats m 0 c).leavesExact 0 t = owns (c : Thread nD τ) (st0_0 t) fullShare (xblk m c t) := by
  unfold Dat.leavesExact; rw [body_live0 (cfg0.grid.coords t), after0_0]

theorem body_leaves1 (c : Dev nD) (t : Fin cfg0.N) :
    (dats m 0 c).leavesExact 1 t = owns (c : Thread nD τ) (st0_1 t) fullShare (accAt m c t.val t.isLt) := by
  unfold Dat.leavesExact; rw [body_live1 (cfg0.grid.coords t), after0_1]

set_option maxHeartbeats 1000000 in
/-- The body at any point: the scores' buffer holds the point's block; at a row's first point the output's buffer holds
    anything and the body stores the block's histogram; at a later point it holds what the point before left and the
    body adds the block's histogram to it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [body_before0]
  rw [show (dats m 0 c).owesAt () t.succ = (dats m 0 c).owesAt () t.castSucc from rfl]
  rw [show (dats m 0 c).Φ t.succ = (dats m 0 c).Φ t.castSucc from rfl]
  rw [body_leaves0, body_leaves1]
  by_cases h0 : t.val % 123 = 0
  · rw [accAt_first m c t h0]
    iintro ⟨HΦ, Ho, ⟨%d0, H0⟩, ⟨%d1, H1⟩⟩
    iapply (body_first c (grid0.coords t) _ _ _ _ ((body_cond1_iff t).mpr h0) (fun h => (body_cond2_iff t).mp h h0) (xblk m c t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · simp only [body_before1_later m c t h0]
    rw [accAt_later m c t h0]
    iintro ⟨HΦ, Ho, ⟨%d0, H0⟩, ⟨%d1, H1⟩⟩
    iapply (body_later c (grid0.coords t) _ _ _ _ (fun h => h0 ((body_cond1_iff t).mp h)) ((body_cond2_iff t).mpr h0) (xblk m c t) _ Set.univ _)
    isplitl [H0]; · iexact H0
    isplitl [H1]; · iexact H1
    iintro ⟨H0, H1⟩
    isplitl [HΦ]; · iexact HΦ
    isplitl [Ho]; · iexact Ho
    isplitl [H0]; · iexact H0
    iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; the pipeline's arrays end at what the proof data say, every
    other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh)
    (hkeep := sfx_keeps) (hmain := hmain m Variants.none) (hA := A_eq m) (hΦ := fun _ _ => rfl)

/-- The program runs and leaves its argument as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hist

end
-- ==== Proof.KIDefs.lean ====
/-
  What one grid point of the kernel computes, named.

  `cnt x0` is the 32×20 block the body builds from its 32×8192 block of scores `x0`: column `q` is, row by row, the lane sum of
  the 0/1 mask "the score's bin is `q`" — twenty masks, twenty lane sums, set side by side. `xblk c t` is the block of the
  widened score array that grid point `t` is handed.
-/
import proofs.«107489_j73744588472820_1_alg».proof.Proof.Gen.KernelIdeal.Skeleton
import proofs.«107489_j73744588472820_1_alg».proof.Proof.Gen.KernelIdeal.Frame

noncomputable section

namespace Cert.KernelIdeal.Hist

open Cert.KernelIdeal Cert.KernelIdeal.Gen
open Idealize.ShloMosaic Idealize.ShloMosaic.TcCoe Idealize.SL.Sem

variable {F : FTy → Type} [FloatOps F]

/-- The per-point histogram block: the body's twenty lane sums of bin masks, side by side. -/
def cnt (x0 : Vec F S32x8192 .f32) : FVec F S32x20 .f32 :=
  k0_pay17 (k0_pay2 x0) (k0_pay3 x0) (k0_pay4 x0) (k0_pay5 x0) (k0_pay6 x0) (k0_pay7 x0) (k0_pay8 x0)
    (k0_pay9 (k0_pay2 x0) 6#32) (k0_pay10 (k0_pay2 x0)) (k0_pay11 (k0_pay2 x0)) (k0_pay12 (k0_pay2 x0))
    (k0_pay13 (k0_pay2 x0)) (k0_pay14 (k0_pay2 x0)) (k0_pay15 (k0_pay2 x0)) (k0_pay16 (k0_pay2 x0))

variable (m : (ℓ : Loc nD τ sig) → Buf (Elt F) ℓ)

/-- The block of scores grid point `t` is handed, at its literal type. -/
abbrev xblk (c : Dev nD) (t : Fin cfg0.N) : Vec F S32x8192 .f32 := iblk m c 0 t

end Cert.KernelIdeal.Hist

end
-- ==== Proof.KIBody.lean ====
/-
  The kernel's run: what its output staging buffer holds after every grid point, and that the program runs.

  The grid is walked row by row, a row being 123 consecutive points. At a row's first point the body stores the histogram
  of the point's block of scores into the output's staging buffer; at every later point of the row it adds the block's
  histogram to what the buffer holds; the buffer is written back at the row's last point. One of the body's two
  conditions holds at every point, so the buffer is stored into at every point.
-/
import proofs.«107489_j73744588472820_1_alg».proof.Proof.KIDefs
import Idealize.ShloMosaic.Lib.Pipeline.Value

set_option maxRecDepth 16384

noncomputable section

namespace Cert.KernelIdeal.Hist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's conditions over the grid -/

/-- The first conditional's condition holds exactly at a row's first point. -/
theorem body_cond1_iff : ∀ t : Fin cfg0.N, k0_cond1 (grid0.coords t) = 1#1 ↔ t.val % 123 = 0 :=
  (by decide +kernel : ∀ t : Fin grid0.N, k0_cond1 (grid0.coords t) = 1#1 ↔ t.val % 123 = 0)

/-- The second's holds exactly at the other points. -/
theorem body_cond2_iff : ∀ t : Fin cfg0.N, k0_cond2 (grid0.coords t) = 1#1 ↔ t.val % 123 ≠ 0 :=
  (by decide +kernel : ∀ t : Fin grid0.N, k0_cond2 (grid0.coords t) = 1#1 ↔ t.val % 123 ≠ 0)

/-- The input window is idle nowhere. -/
theorem body_live0 : ∀ i : grid0.Coords, cfg0.idle 0 i = false := fun _ => rfl

/-- One of the two conditions holds at every setting of the coordinates: the output window is idle nowhere. -/
theorem body_live1 : ∀ i : grid0.Coords, cfg0.idle 1 i = false :=
  (by decide +kernel : ∀ i : grid0.Coords, idle0 1 i = false)

/-- The output window's block is cut nowhere. -/
theorem body_noclip1 : ∀ (i : cfg0.grid.Coords) a, (cfg0.win 1).clip i a = none := by decide +kernel

/-! ## The body on any whole staging memrefs -/

/-- The zero offsets of a two-axis rectangle, as a function. -/
theorem body_hz2 : (![0, 0] : Fin 2 → Nat) = fun _ => 0 := by funext a; fin_cases a <;> rfl

set_option maxHeartbeats 1000000 in
/-- The body at a row's first point, on any whole staging memrefs: from the scores' block `x0` and anything in the
    output's buffer it runs to the block in place and the output's buffer at the block's histogram. -/
theorem body_first (c : Dev nD) (i : grid0.Coords) (arg2 : Memref sig .tc .vmem S32x8192 .f32) (harg2 : arg2.IsWhole)
    (arg3 : Memref sig .tc .vmem S32x20 .f32) (harg3 : arg3.IsWhole) (h1 : k0_cond1 i = 1#1) (h2 : ¬k0_cond2 i = 1#1)
    (x0 : Vec F S32x8192 .f32) (E : Set ℕ) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (cnt x0)) -∗ K ⟨⟩))
      ⊢ wp frame (wpE (defs₀ (F := F)) Variants.none c none) E (cc0__hist_kernel i arg2 harg2 arg3 harg3) K := by
  simp only [cc0__hist_kernel_eq_skeleton]; unfold cc0__hist_kernel_skel
  unfold owns
  iintro ⟨⟨%f0, %hf0, H0⟩, ⟨%d1, %f1, -, H1⟩, Hk⟩
  obtain rfl := harg2.eq_unread hf0
  sl_exec (disch := first | exact h1 | exact h2)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_singleton_self _, View.mem_set_unit_zero body_hz2 inb_S32x20_S32x20_0_0 y⟩),
    View.canon_unit_zero body_hz2]
  unfold cnt
  sl_unfold_words
  simp only [View.readAt_eq_ld, harg2.read_unread, View.ld_unit_zero (S := S32x8192) body_hz2]

set_option maxHeartbeats 1000000 in
/-- The body at a later point of a row: from the block `x0` and the output's buffer at `acc` it runs to the block in
    place and the buffer at the block's histogram added to `acc`. -/
theorem body_later (c : Dev nD) (i : grid0.Coords) (arg2 : Memref sig .tc .vmem S32x8192 .f32) (harg2 : arg2.IsWhole)
    (arg3 : Memref sig .tc .vmem S32x20 .f32) (harg3 : arg3.IsWhole) (h1 : ¬k0_cond1 i = 1#1) (h2 : k0_cond2 i = 1#1)
    (x0 : Vec F S32x8192 .f32) (acc : Vec F S32x20 .f32) (E : Set ℕ) (K : PUnit → sProp 𝕄) :
    iprop(owns (c : Thread nD τ) arg2 fullShare x0 ∗ owns (c : Thread nD τ) arg3 fullShare acc
        ∗ (iprop(owns (c : Thread nD τ) arg2 fullShare x0 ∗ owns (c : Thread nD τ) arg3 fullShare (k0_pay1 (cnt x0) acc)) -∗ K ⟨⟩))
      ⊢ wp frame (wpE (defs₀ (F := F)) Variants.none c none) E (cc0__hist_kernel i arg2 harg2 arg3 harg3) K := by
  simp only [cc0__hist_kernel_eq_skeleton]; unfold cc0__hist_kernel_skel
  unfold owns
  iintro ⟨⟨%f0, %hf0, H0⟩, ⟨%f1, %hf1, H1⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_singleton_self _, View.mem_set_unit_zero body_hz2 inb_S32x20_S32x20_0_0 y⟩),
    View.canon_unit_zero body_hz2]
  unfold cnt
  sl_unfold_words
  simp only [View.readAt_eq_ld, harg2.read_unread, harg3.read_unread, View.ld_unit_zero (S := S32x8192) body_hz2, View.ld_unit_zero (S := S32x20) body_hz2]

/-! ## What the output's buffer holds point by point, and the proof data -/

/-- What the output's staging buffer holds after grid point `n` (points are walked in order; a row of the grid is 123
    consecutive points): at a row's first point the point's own block histogram, afterwards the point's added to what
    the point before left. -/
def accAt (c : Dev nD) : (n : ℕ) → n < cfg0.N → Vec F S32x20 .f32
  | 0, hn => cnt (xblk m c ⟨0, hn⟩)
  | n + 1, hn =>
    if (n + 1) % 123 = 0 then cnt (xblk m c ⟨n + 1, hn⟩)
    else k0_pay1 (cnt (xblk m c ⟨n + 1, hn⟩)) (accAt c n (Nat.lt_of_succ_lt hn))

theorem accAt_first (c : Dev nD) (t : Fin cfg0.N) (h : t.val % 123 = 0) :
    accAt m c t.val t.isLt = cnt (xblk m c t) := by
  obtain ⟨n, hn⟩ := t
  cases n with
  | zero => rfl
  | succ n => exact (if_pos h).trans rfl

theorem accAt_later (c : Dev nD) (t : Fin cfg0.N) (h : t.val % 123 ≠ 0) :
    accAt m c t.val t.isLt
      = k0_pay1 (cnt (xblk m c t)) (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = accAt m c t.val t.isLt := by dsimp only [dats]

/-! ## The body obligation -/

/-- The scores' staging buffer holds the point's block at every point. -/
theorem body_before0 (c : Dev nD) (t : Fin cfg0.N) (d) : (dats m 0 c).before 0 t d = xblk m c t :=
  before0_0_of m (dats m 0 c) (A_eq m c 0) (after0_0 m c) t d

/-- The point before a later point of a row does not write the output's block back. -/
theorem body_noflush_before (t : Fin cfg0.N) (h : t.val % 123 ≠ 0) :
    (cfg0.win 1).flush ⟨t.val - 1, Nat.lt_of_le_of_lt (Nat.sub_le _ _) t.isLt⟩ = false := by
  apply Bool.eq_false_iff.mpr
  intro hf
  have := (flush0_1 ⟨t.val - 1, Nat.lt_of_le_of_lt (Nat.sub_le _ _) t.isLt⟩).mp hf
  dsimp only at this
  omega

/-- At a later point of a row the output's staging buffer holds what the point before left. -/
theorem body_before1_later (c : Dev nD) (t : Fin cfg0.N) (h : t.val % 123 ≠ 0) (d) :
    (dats m 0 c).before 1 t d = accAt m c (t.val - 1) (Nat.lt_of_le_of_lt (Nat.sub_le _ _) t.isLt) :=
  ((dats m 0 c).before_out_kept 1 rfl t (fun h0 => h (by rw [h0])) (body_noflush_before t h) body_live1 body_noclip1 d).trans
    (after0_1 m c ⟨t.val - 1, Nat.lt_of_le_of_lt (Nat.sub_le _ _) t.isLt⟩)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

theorem body_leaves0 (c : Dev nD) (t : Fin cfg0.N) :
    (dats m 0 c).leavesExact 0 t = owns (c : Thread nD τ) (st0_0 t) fullShare (xblk m c t) := by
  unfold Dat.leavesExact; rw [body_live0 (cfg0.grid.coords t), after0_0]

theorem body_leaves1 (c : Dev nD) (t : Fin cfg0.N) :
    (dats m 0 c).leavesExact 1 t = owns (c : Thread nD τ) (st0_1 t) fullShare (accAt m c t.val t.isLt) := by
  unfold Dat.leavesExact; rw [body_live1 (cfg0.grid.coords t), after0_1]

set_option maxHeartbeats 1000000 in
/-- The body at any point: the scores' buffer holds the point's block; at a row's first point the output's buffer holds
    anything and the body stores the block's histogram; at a later point it holds what the point before left and the
    body adds the block's histogram to it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [body_before0]
  rw [show (dats m 0 c).owesAt () t.succ = (dats m 0 c).owesAt () t.castSucc from rfl]
  rw [show (dats m 0 c).Φ t.succ = (dats m 0 c).Φ t.castSucc from rfl]
  rw [body_leaves0, body_leaves1]
  by_cases h0 : t.val % 123 = 0
  · rw [accAt_first m c t h0]
    iintro ⟨HΦ, Ho, ⟨%d0, H0⟩, ⟨%d1, H1⟩⟩
    iapply (body_first c (grid0.coords t) _ _ _ _ ((body_cond1_iff t).mpr h0) (fun h => (body_cond2_iff t).mp h h0) (xblk m c t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · simp only [body_before1_later m c t h0]
    rw [accAt_later m c t h0]
    iintro ⟨HΦ, Ho, ⟨%d0, H0⟩, ⟨%d1, H1⟩⟩
    iapply (body_later c (grid0.coords t) _ _ _ _ (fun h => h0 ((body_cond1_iff t).mp h)) ((body_cond2_iff t).mpr h0) (xblk m c t) _ Set.univ _)
    isplitl [H0]; · iexact H0
    isplitl [H1]; · iexact H1
    iintro ⟨H0, H1⟩
    isplitl [HΦ]; · iexact HΦ
    isplitl [Ho]; · iexact Ho
    isplitl [H0]; · iexact H0
    iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; the pipeline's arrays end at what the proof data say, every
    other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh)
    (hkeep := sfx_keeps) (hmain := hmain m Variants.none) (hA := A_eq m) (hΦ := fun _ _ => rfl)

/-- The program runs and leaves its argument as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hist

end
-- ==== Proof.Spec.lean ====
/-
  The histogram both programs compute, as one function of the score array.

  A score `v` falls in bin `⌊20·v⌋`, read as a 32-bit signed word (`bin`); `ind v q` is 1 when that word is `q` and 0
  otherwise; `counts x b q` is, for sample `b` and bin `q`, the number of the sample's 1,000,000 scores whose bin is `q`,
  as an extended real: a sum of ones and zeros. Nothing here restricts the scores: a score outside [0, 1) simply has a
  bin outside 0..19 and is counted in no `counts x b q` with `q < 20`.

  `padv` is the score array widened to 1,007,616 columns with the filler −1, whose bin is −20: the filler is counted nowhere.
-/
import Idealize.ShloMosaic.PureOps.Ideal
import Idealize.ShloMosaic.Lib.ValueIdx

noncomputable section

open scoped BigOperators

namespace Cert.Hist

open Idealize.ShloMosaic Idealize.ShloMosaic.ValueIdx

/-- The score array's shape, and the histogram's. -/
abbrev SX : Shape := ⟨2, ![64, 1000000]⟩
abbrev SC : Shape := ⟨2, ![64, 20]⟩

/-- The bin of a score: the floor of twenty times it, as a signed 32-bit word. -/
def bin (v : EReal) : BitVec 32 :=
  Ideal.fptosi 32 (Ideal.liftRound Int.floor (v * Ideal.ofBits .f32 0x41A00000#32))

/-- One score's contribution to bin `q`. -/
def ind (v : EReal) (q : BitVec 32) : EReal := if bin v = q then 1 else 0

/-- How many of sample `b`'s scores fall in bin `q`. -/
def counts (x : SX.Idx → EReal) (b : Fin 64) (q : Fin 20) : EReal :=
  ∑ l : Fin 1000000, ind (x (ix2 b l)) (BitVec.ofNat 32 q.val)

/-- The histogram as an array over (sample, bin). -/
def countsArr (x : SX.Idx → EReal) : SC.Idx → EReal :=
  fun i => counts x ⟨(i 0).val, idx2_lt0 i⟩ ⟨(i 1).val, idx2_lt1 i⟩

theorem countsArr_ix2 (x : SX.Idx → EReal) (b : Fin 64) (q : Fin 20) : countsArr x (ix2 b q) = counts x b q := rfl

/-- The scores widened by 7,616 filler columns holding −1. -/
def padv (x : SX.Idx → EReal) (b : Fin 64) (l : Fin 1007616) : EReal :=
  if h : l.val < 1000000 then x (ix2 b ⟨l.val, h⟩) else Ideal.ofBits .f32 0xBF800000#32

end Cert.Hist

end
-- ==== Proof.KICntValue.lean ====
/-
  The per-point block histogram, read at an index over the extended reals.
-/
import proofs.«107489_j73744588472820_1_alg».proof.Proof.KIDefs
import proofs.«107489_j73744588472820_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hist

open Cert.KernelIdeal Cert.KernelIdeal.Gen Cert.Hist
open Idealize.ShloMosaic Idealize.ShloMosaic.ValueIdx

/-- An equality test of two 32-bit words, widened from one bit to 32 and read as a signed integer, is 1 where they agree
    and 0 where they differ. -/
theorem mask_word (a b : BitVec 32) :
    (FloatOps.sitofp (F := Ideal) .f32 ((IntOp.cmpi .eq a b).setWidth 32) : EReal) = if a = b then 1 else 0 := by
  by_cases h : a = b
  · subst h
    rw [if_pos rfl]
    have e : (IntOp.cmpi .eq a a).setWidth 32 = 1#32 := by simp [IntOp.cmpi]
    rw [e]
    show (((1#32 : BitVec 32).toInt : ℝ) : EReal) = 1
    have t : (1#32 : BitVec 32).toInt = 1 := by decide
    rw [t, Int.cast_one, EReal.coe_one]
  · rw [if_neg h]
    have hb : (a == b) = false := beq_eq_false_iff_ne.mpr h
    have e : (IntOp.cmpi .eq a b).setWidth 32 = 0#32 := by
      show (BitVec.ofBool (a == b)).setWidth 32 = 0#32
      rw [hb]; rfl
    rw [e]
    show (((0#32 : BitVec 32).toInt : ℝ) : EReal) = 0
    have t : (0#32 : BitVec 32).toInt = 0 := by decide
    rw [t, Int.cast_zero, EReal.coe_zero]

/-- One column of the block histogram: the lane sums of the 0/1 mask "the word is `qv`", kept as a 32×1 column, read at
    row `r`: how many of the row's 8192 words are `qv`. -/
theorem col_apply (v5 : IVec S32x8192 32) (qv : BitVec 32) (r : Fin 32) (u : Fin 1) :
    shapeCast S32x1 (multiReduction (F := Ideal) .add [1] S32
        (sitofp .f32 (extui 32 (cmpi .eq v5 (broadcast S32x8192 qv)) natLt_1_32)) 0x00000000#32
        reduces_S32x8192_S32 (.inl rfl) rfl) shapeCasts_S32_S32x1 (ix2 r u)
      = ∑ k : Fin 8192, (if v5 (ix2 r k) = qv then (1 : EReal) else 0) := by
  refine (shapeCast_apply _ _ (ix2 r u) (ix1 r) ?_).trans ?_
  · rw [Shape.rowMajor_val_one, Shape.rowMajor_val_two]
    show r.val = r.val * 1 + u.val
    omega
  refine (Ideal.multiReduction_add_single _ _ reduces_S32x8192_S32 _ _ (ix1 r)).trans ?_
  refine Finset.sum_congr rfl fun k _ => ?_
  have hl : reduces_S32x8192_S32.lift (ix1 r) k = ix2 r k := by
    funext a
    match a with
    | ⟨0, _⟩ => exact Fin.ext rfl
    | ⟨1, _⟩ => exact Fin.ext rfl
  rw [hl]
  exact mask_word _ _

/-- The bins' vector read at an index is the bin of the score there. -/
theorem bins_apply (x0 : Vec Ideal S32x8192 .f32) (i : S32x8192.Idx) : k0_pay2 (F := Ideal) x0 i = bin (x0 i) :=
  congrArg (fun z : EReal => Ideal.fptosi 32 (Ideal.liftRound Int.floor (z * Ideal.ofBits .f32 0x41A00000#32)))
    (congrFun (shapeCast_self x0 shapeCasts_S32x8192_S32x8192) i)

/-- The column of bin word `qv` built from the block's own bins, read at row `r`: how many of the row's scores fall
    in that bin. -/
theorem col_ind (x0 : Vec Ideal S32x8192 .f32) (qv : BitVec 32) (r : Fin 32) (u : Fin 1) :
    shapeCast S32x1 (multiReduction (F := Ideal) .add [1] S32
        (sitofp .f32 (extui 32 (cmpi .eq (k0_pay2 x0) (broadcast S32x8192 qv)) natLt_1_32)) 0x00000000#32
        reduces_S32x8192_S32 (.inl rfl) rfl) shapeCasts_S32_S32x1 (ix2 r u)
      = ∑ k : Fin 8192, ind (x0 (ix2 r k)) qv := by
  refine (col_apply (k0_pay2 x0) qv r u).trans ?_
  refine Finset.sum_congr rfl fun k _ => ?_
  rw [bins_apply]
  rfl

/-- A 32×1 column's entry `(r, 0)` and the 32×20 block's entry `(r, q)` share every coordinate off the column axis. -/
theorem col_hi (r : Fin 32) (q : Fin 20) (hr : S32x1.rank = S32x20.rank) :
    ∀ b : Fin S32x1.rank, b.cast hr ≠ (1 : Fin S32x20.rank) →
      ((ix2 r (0 : Fin 1) : S32x1.Idx) b).val = ((ix2 r q : S32x20.Idx) (b.cast hr)).val := by
  intro b hb
  match b, hb with
  | ⟨0, _⟩, _ => rfl
  | ⟨1, _⟩, hb => exact absurd (Fin.ext rfl) hb

/-- A 32×20 block made of twenty 32×1 columns set side by side, read at `(r, n)`, is column `n` read at `(r, 0)`. -/
theorem concat_cols (xs : List ((s : Shape) × (s.Idx → EReal)))
    (hc : Shape.Concatenates (xs.map (·.1)) S32x20 1)
    (hs : xs.map (·.1) = List.replicate 20 S32x1) (r : Fin 32) (n : Nat) (hn : n < 20)
    (x₁ : S32x1.Idx → EReal) (hl : n < xs.length) (hx : xs[n] = ⟨S32x1, x₁⟩) :
    concatenate S32x20 1 xs hc (ix2 r ⟨n, hn⟩) = x₁ (ix2 r (0 : Fin 1)) := by
  refine concatenate_apply_piece (1 : Fin 2) xs hc (ix2 r ⟨n, hn⟩) n hl S32x1 x₁ hx rfl n ?_
    (ix2 r (0 : Fin 1)) (col_hi r _ rfl) ?_
  · rw [List.map_take, hs, List.take_replicate, List.map_replicate]
    show (List.replicate (min n 20) 1).sum = n
    rw [List.sum_replicate, smul_eq_mul, Nat.mul_one]
    omega
  · show n + 0 = n
    rfl

/-- Row `r`, bin `q` of a point's block histogram: how many of the row's 8192 scores fall in bin `q`. -/
theorem cnt_apply (x0 : Vec Ideal S32x8192 .f32) (r : Fin 32) (q : Fin 20) :
    cnt (F := Ideal) x0 (ix2 r q) = ∑ k : Fin 8192, ind (x0 (ix2 r k)) (BitVec.ofNat 32 q.val) := by
  unfold cnt k0_pay17
  match q with
  | ⟨0, h⟩ =>
    exact (concat_cols _ _ rfl r 0 h
      (k0_pay3 (F := Ideal) x0)
      (Nat.lt_of_sub_eq_succ rfl) rfl).trans (col_ind x0 0#32 r 0)
  | ⟨1, h⟩ =>
    exact (concat_cols _ _ rfl r 1 h
      (k0_pay4 (F := Ideal) x0)
      (Nat.lt_of_sub_eq_succ rfl) rfl).trans (col_ind x0 1#32 r 0)
  | ⟨2, h⟩ =>
    exact (concat_cols _ _ rfl r 2 h
      (k0_pay5 (F := Ideal) x0)
      (Nat.lt_of_sub_eq_succ rfl) rfl).trans (col_ind x0 2#32 r 0)
  | ⟨3, h⟩ =>
    exact (concat_cols _ _ rfl r 3 h
      (k0_pay6 (F := Ideal) x0)
      (Nat.lt_of_sub_eq_succ rfl) rfl).trans (col_ind x0 3#32 r 0)
  | ⟨4, h⟩ =>
    exact (concat_cols _ _ rfl r 4 h
      (k0_pay7 (F := Ideal) x0)
      (Nat.lt_of_sub_eq_succ rfl) rfl).trans (col_ind x0 4#32 r 0)
  | ⟨5, h⟩ =>
    exact (concat_cols _ _ rfl r 5 h
      (k0_pay8 (F := Ideal) x0)
      (Nat.lt_of_sub_eq_succ rfl) rfl).trans (col_ind x0 5#32 r 0)
  | ⟨6, h⟩ =>
    exact (concat_cols _ _ rfl r 6 h
      (k0_pay9 (F := Ideal) (k0_pay2 x0) 6#32)
      (Nat.lt_of_sub_eq_succ rfl) rfl).trans (col_ind x0 6#32 r 0)
  | ⟨7, h⟩ =>
    exact (concat_cols _ _ rfl r 7 h
      (k0_pay10 (F := Ideal) (k0_pay2 x0))
      (Nat.lt_of_sub_eq_succ rfl) rfl).trans (col_ind x0 7#32 r 0)
  | ⟨8, h⟩ =>
    exact (concat_cols _ _ rfl r 8 h
      (k0_pay11 (F := Ideal) (k0_pay2 x0))
      (Nat.lt_of_sub_eq_succ rfl) rfl).trans (col_ind x0 8#32 r 0)
  | ⟨9, h⟩ =>
    exact (concat_cols _ _ rfl r 9 h
      (k0_pay12 (F := Ideal) (k0_pay2 x0))
      (Nat.lt_of_sub_eq_succ rfl) rfl).trans (col_ind x0 9#32 r 0)
  | ⟨10, h⟩ =>
    exact (concat_cols _ _ rfl r 10 h
      (k0_pay13 (F := Ideal) (k0_pay2 x0))
      (Nat.lt_of_sub_eq_succ rfl) rfl).trans (col_ind x0 10#32 r 0)
  | ⟨11, h⟩ =>
    exact (concat_cols _ _ rfl r 11 h
      (k0_pay14 (F := Ideal) (k0_pay2 x0))
      (Nat.lt_of_sub_eq_succ rfl) rfl).trans (col_ind x0 11#32 r 0)
  | ⟨12, h⟩ =>
    exact (concat_cols _ _ rfl r 12 h
      (k0_pay15 (F := Ideal) (k0_pay2 x0))
      (Nat.lt_of_sub_eq_succ rfl) rfl).trans (col_ind x0 12#32 r 0)
  | ⟨13, h⟩ =>
    exact (concat_cols _ _ rfl r 13 h
      (shapeCast S32x1 (multiReduction (F := Ideal) .add [1] S32 (k0_pay16 (k0_pay2 x0)) 0x00000000#32
        reduces_S32x8192_S32 (.inl rfl) rfl) shapeCasts_S32_S32x1)
      (Nat.lt_of_sub_eq_succ rfl) rfl).trans (col_ind x0 13#32 r 0)
  | ⟨14, h⟩ =>
    exact (concat_cols _ _ rfl r 14 h
      (shapeCast S32x1 (multiReduction (F := Ideal) .add [1] S32
        (sitofp .f32 (extui 32 (cmpi .eq (k0_pay2 x0) (broadcast S32x8192 14#32)) natLt_1_32)) 0x00000000#32
        reduces_S32x8192_S32 (.inl rfl) rfl) shapeCasts_S32_S32x1)
      (Nat.lt_of_sub_eq_succ rfl) rfl).trans (col_ind x0 14#32 r 0)
  | ⟨15, h⟩ =>
    exact (concat_cols _ _ rfl r 15 h
      (shapeCast S32x1 (multiReduction (F := Ideal) .add [1] S32
        (sitofp .f32 (extui 32 (cmpi .eq (k0_pay2 x0) (broadcast S32x8192 15#32)) natLt_1_32)) 0x00000000#32
        reduces_S32x8192_S32 (.inl rfl) rfl) shapeCasts_S32_S32x1)
      (Nat.lt_of_sub_eq_succ rfl) rfl).trans (col_ind x0 15#32 r 0)
  | ⟨16, h⟩ =>
    exact (concat_cols _ _ rfl r 16 h
      (shapeCast S32x1 (multiReduction (F := Ideal) .add [1] S32
        (sitofp .f32 (extui 32 (cmpi .eq (k0_pay2 x0) (broadcast S32x8192 16#32)) natLt_1_32)) 0x00000000#32
        reduces_S32x8192_S32 (.inl rfl) rfl) shapeCasts_S32_S32x1)
      (Nat.lt_of_sub_eq_succ rfl) rfl).trans (col_ind x0 16#32 r 0)
  | ⟨17, h⟩ =>
    exact (concat_cols _ _ rfl r 17 h
      (shapeCast S32x1 (multiReduction (F := Ideal) .add [1] S32
        (sitofp .f32 (extui 32 (cmpi .eq (k0_pay2 x0) (broadcast S32x8192 17#32)) natLt_1_32)) 0x00000000#32
        reduces_S32x8192_S32 (.inl rfl) rfl) shapeCasts_S32_S32x1)
      (Nat.lt_of_sub_eq_succ rfl) rfl).trans (col_ind x0 17#32 r 0)
  | ⟨18, h⟩ =>
    exact (concat_cols _ _ rfl r 18 h
      (shapeCast S32x1 (multiReduction (F := Ideal) .add [1] S32
        (sitofp .f32 (extui 32 (cmpi .eq (k0_pay2 x0) (broadcast S32x8192 18#32)) natLt_1_32)) 0x00000000#32
        reduces_S32x8192_S32 (.inl rfl) rfl) shapeCasts_S32_S32x1)
      (Nat.lt_of_sub_eq_succ rfl) rfl).trans (col_ind x0 18#32 r 0)
  | ⟨19, h⟩ =>
    exact (concat_cols _ _ rfl r 19 h
      (shapeCast S32x1 (multiReduction (F := Ideal) .add [1] S32
        (sitofp .f32 (extui 32 (cmpi .eq (k0_pay2 x0) (broadcast S32x8192 19#32)) natLt_1_32)) 0x00000000#32
        reduces_S32x8192_S32 (.inl rfl) rfl) shapeCasts_S32_S32x1)
      (Nat.lt_of_sub_eq_succ rfl) rfl).trans (col_ind x0 19#32 r 0)
  | ⟨n + 20, h⟩ => exact absurd h (by omega)

/-- Adding a point's block histogram to the running one is entrywise addition. -/
theorem pay1_apply (a : FVec Ideal S32x20 .f32) (acc : Vec Ideal S32x20 .f32) (i : S32x20.Idx) :
    k0_pay1 (F := Ideal) a acc i = acc i + a i :=
  congrArg (fun z : EReal => z + a i) (congrFun (shapeCast_self acc shapeCasts_S32x20_S32x20) i)

end Cert.KernelIdeal.Hist

end
-- ==== Proof.KIBlock.lean ====
/-
  The block of scores a grid point is handed, read at an index: the widened score array at the block's place.
-/
import proofs.«107489_j73744588472820_1_alg».proof.Proof.KIDefs
import proofs.«107489_j73744588472820_1_alg».proof.Proof.Spec
import Idealize.ShloMosaic.Lib.ValueIdx
import Idealize.ShloMosaic.Lib.KernelVsHost
import Idealize.ShloMosaic.Lib.Pipeline.Value
import Idealize.ShloMosaic.Lib.StableHlo.Run

set_option maxRecDepth 16384

noncomputable section

namespace Cert.KernelIdeal.Hist

open Cert.KernelIdeal Cert.KernelIdeal.Gen Cert.Hist
open Idealize.ShloMosaic Idealize.ShloMosaic.TcCoe Idealize.SL.Sem Idealize.ShloMosaic.ValueIdx

variable (m : (ℓ : Loc nD τ sig) → Buf (Elt Ideal) ℓ)

/-- The widened array as the region finds it: the host's widening of the launched scores by the scalar −1. -/
theorem V_main_v0 (c : Dev nD) :
    (V m c main_v0 : S64x1007616.Idx → EReal) =
      pad S64x1007616 ![0, 0] ![0, 7616] ![0, 0] (m ((c.tc : Thread nD τ).loc main_arg0))
        (constant S_ .f32 0xBF800000#32 (F := Ideal)) pads_S64x1000000_S64x1007616_000_076160 h_S_ := by
  dsimp only [Gen.V, Gen.V0]
  simp only [Gen.hostOps0, Gen.hostOps0_1, List.flatten_cons, List.flatten_nil, List.append_nil, List.cons_append,
    List.nil_append]
  after_results
  rfl

/-- The block index of grid point `t`: row `t / 123`, column `t % 123`. -/
theorem idx_facts : ∀ t : Fin cfg0.N, win0_0.index t (0 : Fin 2) = t.val / 123 ∧ win0_0.index t (1 : Fin 2) = t.val % 123 :=
  (by decide +kernel : ∀ t : Fin grid0.N, win0_0.index t (0 : Fin 2) = t.val / 123 ∧ win0_0.index t (1 : Fin 2) = t.val % 123)

/-- Entry `y` of point `t`'s block is the widened array, as the region finds it, at row `32·(t / 123) + y₀`,
    column `8192·(t % 123) + y₁`. -/
theorem iblk_apply (c : Dev nD) (t : Fin cfg0.N) (y : S32x8192.Idx) (i : S64x1007616.Idx)
    (h0 : (i 0).val = 32 * (t.val / 123) + (y 0).val) (h1 : (i 1).val = 8192 * (t.val % 123) + (y 1).val) :
    (iblk m c 0 t : Vec Ideal S32x8192 .f32) y = (V m c main_v0 : S64x1007616.Idx → EReal) i := by
  obtain ⟨e0, e1⟩ := idx_facts t
  unfold iblk
  rw [View.read_apply]
  show V m c main_v0 _ = V m c main_v0 _
  congr 1
  funext a
  apply Fin.ext
  match a with
  | ⟨0, _⟩ => show win0_0.index t (0 : Fin 2) * 32 + 1 * (y 0).val = (i 0).val; omega
  | ⟨1, _⟩ => show win0_0.index t (1 : Fin 2) * 8192 + 1 * (y 1).val = (i 1).val; omega

/-- The host's widening read at an index: the scores inside the first 1,000,000 columns, the filler −1 beyond. -/
theorem pad_read (x : S64x1000000.Idx → EReal) (i : S64x1007616.Idx) (b : Fin 64) (l : Fin 1007616)
    (h0 : (i 0).val = b.val) (h1 : (i 1).val = l.val) :
    pad S64x1007616 ![0, 0] ![0, 7616] ![0, 0] x (constant S_ .f32 0xBF800000#32 (F := Ideal))
      pads_S64x1000000_S64x1007616_000_076160 h_S_ i = padv x b l := by
  unfold padv
  split
  · rename_i h
    refine pad_apply_of_inside _ _ _ x _ _ _ i (ix2 b ⟨l.val, h⟩) (fun a => ?_)
    match a with
    | ⟨0, _⟩ => show (i 0).val = 0 + b.val * (0 + 1); omega
    | ⟨1, _⟩ => show (i 1).val = 0 + l.val * (0 + 1); omega
  · rename_i h
    refine (pad_apply_of_not_inside _ _ _ x _ _ _ i (1 : Fin 2) ?_).trans rfl
    show ¬(0 ≤ (i 1).val ∧ ((i 1).val - 0) % (0 + 1) = 0 ∧ ((i 1).val - 0) / (0 + 1) < 1000000)
    omega

/-- Grid point `t` is point `t % 123` of grid row `t / 123`; entry (r, k) of its block is the widened score array at
    sample `32·(t / 123) + r`, column `8192·(t % 123) + k`. -/
theorem xblk_apply (c : Dev nD) (t : Fin cfg0.N) (r : Fin 32) (k : Fin 8192) (b : Fin 64) (l : Fin 1007616)
    (hb : b.val = 32 * (t.val / 123) + r.val) (hl : l.val = 8192 * (t.val % 123) + k.val) :
    xblk m c t (ix2 r k) = padv (m ((c.tc : Thread nD τ).loc main_arg0)) b l := by
  refine (iblk_apply m c t (ix2 r k) (ix2 b l) hb hl).trans ?_
  rw [V_main_v0]
  exact pad_read _ (ix2 b l) b l rfl rfl

end Cert.KernelIdeal.Hist

end
-- ==== Proof.KISum.lean ====
/-
  Tiling the widened score array: 123 tiles of 8192 columns cover its 1,007,616 columns; the last 7,616 hold the filler −1,
  whose bin is −20 and so none of 0..19; what is left is the sum over the 1,000,000 scores.
-/
import proofs.«107489_j73744588472820_1_alg».proof.Proof.Spec
import Idealize.ShloMosaic.PureOps.Ideal
import Idealize.ShloMosaic.Lib.ValueIdx
import Mathlib.Algebra.BigOperators.Fin
import Mathlib.Logic.Equiv.Fin.Basic

noncomputable section

open scoped BigOperators

namespace Cert.Hist

open Idealize.ShloMosaic Idealize.ShloMosaic.ValueIdx

namespace KISum

/-- The pattern `0xBF800000` denotes the real −1: sign set, exponent 127, significand 0. -/
theorem ofBits_neg_one : Ideal.ofBits .f32 0xBF800000#32 = ((-1 : ℝ) : EReal) := by
  simp [Ideal.ofBits, Ideal.ieee, -EReal.coe_mul]; norm_num

/-- The pattern `0x41A00000` denotes the real 20 = 1.25 · 2⁴. -/
theorem ofBits_twenty : Ideal.ofBits .f32 0x41A00000#32 = ((20 : ℝ) : EReal) := by
  simp [Ideal.ofBits, Ideal.ieee, -EReal.coe_mul]; norm_num

/-- The clamped integer of a real: its truncation toward zero, kept inside `[lo, hi]`. -/
theorem toIntClamped_coe (lo hi : Int) (r : ℝ) :
    Ideal.toIntClamped lo hi (r : EReal) = max lo (min hi (if 0 ≤ r then ⌊r⌋ else ⌈r⌉)) := rfl

/-- The filler's bin: ⌊20 · (−1)⌋ = −20, well inside the 32-bit signed range, so the word is −20. -/
theorem bin_filler : bin (Ideal.ofBits .f32 0xBF800000#32) = BitVec.ofInt 32 (-20) := by
  unfold bin
  rw [ofBits_neg_one, ofBits_twenty, ← EReal.coe_mul]
  have h : ((-1 : ℝ) * 20) = ((-20 : ℤ) : ℝ) := by norm_num
  rw [h, Ideal.liftRound_coe, Int.floor_intCast]
  unfold Ideal.fptosi
  rw [toIntClamped_coe]
  congr 1
  have : ¬ (0 : ℝ) ≤ ((-20 : ℤ) : ℝ) := by norm_num
  rw [if_neg this, Int.ceil_intCast]
  decide

end KISum

open KISum

/-- The filler −1 has bin −20: it is counted in none of the twenty bins. -/
theorem ind_filler (q : Fin 20) : ind (Ideal.ofBits .f32 0xBF800000#32) (BitVec.ofNat 32 q.val) = 0 := by
  unfold ind
  rw [if_neg]
  rw [bin_filler]
  fin_cases q <;> decide

namespace KISum

/-- Index `k` of tile `j`, of `m` tiles of width `n`, lies below `m * n`. -/
theorem tile_lt {m n : ℕ} (j : Fin m) (k : Fin n) : n * j.val + k.val < m * n := by
  have hj : j.val + 1 ≤ m := j.isLt
  have hk := k.isLt
  calc n * j.val + k.val < n * j.val + n := by omega
    _ = (j.val + 1) * n := by ring
    _ ≤ m * n := Nat.mul_le_mul_right n hj

/-- A sum over `m` tiles of `n` consecutive indices is the sum over all `m * n` indices:
    `(j, k) ↦ n * j + k` is a bijection of `Fin m × Fin n` onto `Fin (m * n)`. -/
theorem sum_tiles {M : Type*} [AddCommMonoid M] (m n N : ℕ) (h : m * n = N) (f : Fin N → M) :
    ∑ j : Fin m, ∑ k : Fin n, f ⟨n * j.val + k.val, h ▸ tile_lt j k⟩ = ∑ l : Fin N, f l := by
  subst h
  rw [← (finProdFinEquiv : Fin m × Fin n ≃ Fin (m * n)).sum_comp f, Fintype.sum_prod_type]
  refine Finset.sum_congr rfl (fun j _ => Finset.sum_congr rfl (fun k _ => ?_))
  refine congrArg f (Fin.ext ?_)
  show n * j.val + k.val = k.val + n * j.val
  omega

/-- A sum over `a + c` indices splits into the first `a` and the last `c`. -/
theorem sum_split {M : Type*} [AddCommMonoid M] (a c N : ℕ) (h : a + c = N) (f : Fin N → M) :
    ∑ l : Fin N, f l
      = ∑ i : Fin a, f ⟨i.val, by have := i.isLt; omega⟩ + ∑ i : Fin c, f ⟨a + i.val, by have := i.isLt; omega⟩ := by
  subst h
  rw [Fin.sum_univ_add]
  rfl

end KISum

/-- Summing a sample's bin-`q` indicators tile by tile over the widened array gives the sample's count. -/
theorem tiles_sum (x : SX.Idx → EReal) (b : Fin 64) (q : Fin 20) :
    ∑ j : Fin 123, ∑ k : Fin 8192,
        ind (padv x b ⟨8192 * j.val + k.val, by have := j.isLt; have := k.isLt; omega⟩) (BitVec.ofNat 32 q.val)
      = counts x b q := by
  have h1 : 123 * 8192 = 1007616 := by norm_num
  have h2 : 1000000 + 7616 = 1007616 := by norm_num
  -- the 123 tiles of 8192 columns are the 1,007,616 columns
  refine (sum_tiles 123 8192 1007616 h1 (fun l => ind (padv x b l) (BitVec.ofNat 32 q.val))).trans ?_
  -- the first 1,000,000 columns are the scores, the last 7,616 the filler
  rw [sum_split 1000000 7616 1007616 h2]
  have hz : ∑ i : Fin 7616, ind (padv x b ⟨1000000 + i.val, by have := i.isLt; omega⟩) (BitVec.ofNat 32 q.val) = 0 := by
    refine Finset.sum_eq_zero (fun i _ => ?_)
    have hn : ¬ (1000000 + i.val < 1000000) := by omega
    unfold padv
    rw [dif_neg hn]
    exact ind_filler q
  rw [hz, add_zero]
  unfold counts
  refine Finset.sum_congr rfl (fun l _ => ?_)
  unfold padv
  rw [dif_pos l.isLt]

end Cert.Hist

end
-- ==== Proof.KICounts.lean ====
/-
  What the kernel leaves in its result array: the histogram of the scores.

  The grid is 2 rows of 123 points; point `123·i + j` is handed columns `8192·j … 8192·j + 8191` of samples
  `32·i … 32·i + 31` of the score array widened to 1,007,616 columns. Along a grid row the output's staging buffer is a
  running sum: the row's first point stores its own block histogram, every later point adds its own, so after point `j`
  the buffer holds, for each of the row's 32 samples and each bin, the sample's count over the tiles `0 … j`
  (`accAt_sum`, by induction on `j`). At the row's last point, `j = 122`, that is the count over all 123 tiles, which is
  the sample's count over its 1,000,000 scores, the filler columns counting nowhere (`accAt_last`). The buffer is written
  back exactly at those two points, into rows `32·i … 32·i + 31` of the 64×20 result; the two blocks cover the result,
  so the result ends as the histogram (`final_counts`).
-/
import proofs.«107489_j73744588472820_1_alg».proof.Proof.KIBody
import proofs.«107489_j73744588472820_1_alg».proof.Proof.KICntValue
import proofs.«107489_j73744588472820_1_alg».proof.Proof.KIBlock
import proofs.«107489_j73744588472820_1_alg».proof.Proof.KISum

set_option maxRecDepth 16384

noncomputable section

open scoped BigOperators

namespace Cert.KernelIdeal.Hist

open Cert.KernelIdeal Cert.KernelIdeal.Gen Cert.Hist
open Idealize.ShloMosaic Idealize.ShloMosaic.TcCoe Idealize.SL.Sem Idealize.ShloMosaic.ValueIdx

variable (m : (ℓ : Loc nD τ sig) → Buf (Elt Ideal) ℓ)

namespace Counts

/-- The argument's scores as core `c` holds them at launch. -/
abbrev xarg (c : Dev nD) : SX.Idx → EReal := m ((c.tc : Thread nD τ).loc main_arg0)

/-- Sample `b`'s bin-`q` count over tile `j` of the widened score array (tiles are 8192 columns wide; there are 123 of
    them, and past the last one the count is zero). -/
def tile (x : SX.Idx → EReal) (b : Fin 64) (q : Fin 20) (j : ℕ) : EReal :=
  if h : j < 123 then
    ∑ k : Fin 8192, ind (padv x b ⟨8192 * j + k.val, by have := k.isLt; omega⟩) (BitVec.ofNat 32 q.val)
  else 0

/-- The staging buffer's contents depend on the point's number only. -/
theorem accAt_congr (c : Dev nD) {n n' : ℕ} (e : n = n') (h : n < cfg0.N) (h' : n' < cfg0.N) :
    accAt m c n h = accAt m c n' h' := by
  subst e; rfl

/-- Point `123·i + j`'s block histogram at row `r`, bin `q`, is tile `j`'s count of sample `32·i + r`. -/
theorem cnt_point (c : Dev nD) (i j : ℕ) (hj : j < 123) (h : 123 * i + j < cfg0.N) (r : Fin 32) (q : Fin 20)
    (b : Fin 64) (hb : b.val = 32 * i + r.val) :
    cnt (F := Ideal) (xblk m c ⟨123 * i + j, h⟩) (ix2 r q) = tile (xarg m c) b q j := by
  refine (cnt_apply (xblk m c ⟨123 * i + j, h⟩) r q).trans ?_
  unfold tile
  rw [dif_pos hj]
  refine Finset.sum_congr rfl fun k _ => ?_
  have hd : (123 * i + j) / 123 = i := by omega
  have hm : (123 * i + j) % 123 = j := by omega
  exact congrArg (fun v => ind v (BitVec.ofNat 32 q.val))
    (xblk_apply m c ⟨123 * i + j, h⟩ r k b ⟨8192 * j + k.val, by have := k.isLt; omega⟩
      (by show b.val = 32 * ((123 * i + j) / 123) + r.val; rw [hd]; exact hb)
      (by show 8192 * j + k.val = 8192 * ((123 * i + j) % 123) + k.val; rw [hm]))

/-- THE RUNNING SUM. After point `j` of grid row `i` the staging buffer holds, at row `r` and bin `q`, the count of
    sample `32·i + r` over the tiles `0 … j`: the row's first point stores its tile's count, every later one adds its own. -/
theorem accAt_sum (c : Dev nD) (i : ℕ) (r : Fin 32) (q : Fin 20) (b : Fin 64) (hb : b.val = 32 * i + r.val) :
    ∀ (j : ℕ) (_ : j < 123) (h : 123 * i + j < cfg0.N),
      accAt m c (123 * i + j) h (ix2 r q) = ∑ j' ∈ Finset.range (j + 1), tile (xarg m c) b q j'
  | 0, hj, h => by
    rw [Finset.sum_range_one]
    refine (congrFun (accAt_first m c ⟨123 * i + 0, h⟩ (by show (123 * i + 0) % 123 = 0; omega)) (ix2 r q)).trans ?_
    exact cnt_point m c i 0 hj h r q b hb
  | j + 1, hj, h => by
    have hlt : 123 * i + j < cfg0.N := by omega
    rw [Finset.sum_range_succ, ← accAt_sum c i r q b hb j (by omega) hlt]
    refine (congrFun (accAt_later m c ⟨123 * i + (j + 1), h⟩ (by show (123 * i + (j + 1)) % 123 ≠ 0; omega)) (ix2 r q)).trans ?_
    refine (pay1_apply _ _ (ix2 r q)).trans ?_
    rw [cnt_point m c i (j + 1) hj h r q b hb]
    exact congrArg (fun v => v + tile (xarg m c) b q (j + 1))
      (congrFun (accAt_congr m c (by show 123 * i + (j + 1) - 1 = 123 * i + j; omega) _ hlt) (ix2 r q))

/-- THE ROW'S LAST POINT. When the output block is written back (point 122 of its grid row) the staging buffer holds,
    at row `r` and bin `q`, sample `32·(row) + r`'s count over all 123 tiles: the sample's count. -/
theorem accAt_last (c : Dev nD) (t : Fin cfg0.N) (ht : t.val % 123 = 122) (r : Fin 32) (q : Fin 20) (b : Fin 64)
    (hb : b.val = 32 * (t.val / 123) + r.val) :
    accAt m c t.val t.isLt (ix2 r q) = counts (xarg m c) b q := by
  have hN : cfg0.N = 246 := N_0
  have hlt : 123 * (t.val / 123) + 122 < cfg0.N := by have := t.isLt; omega
  rw [accAt_congr m c (show t.val = 123 * (t.val / 123) + 122 by omega) t.isLt hlt,
    accAt_sum m c (t.val / 123) r q b hb 122 (by omega) hlt, Finset.sum_range]
  refine (Finset.sum_congr rfl fun j' _ => ?_).trans (tiles_sum (xarg m c) b q)
  unfold tile
  rw [dif_pos j'.isLt]

/-- The output window's block index over the grid: the grid row along the samples, block 0 along the bins. -/
theorem out_index : ∀ t : Fin cfg0.N, win0_1.index t (0 : Fin 2) = t.val / 123 ∧ win0_1.index t (1 : Fin 2) = 0 :=
  (by decide +kernel : ∀ t : Fin grid0.N, _)

/-- Entry `y` of the staging buffer at a row's last point is the histogram at the entry's place in the array: sample
    `32·row + y₀`, bin `y₁`. -/
theorem point_eq (c : Dev nD) (t : Fin cfg0.N) (ht : t.val % 123 = 122) (y : S32x20.Idx) (i : S64x20.Idx)
    (h0 : (i 0).val = 32 * (t.val / 123) + (y 0).val) (h1 : (i 1).val = (y 1).val) :
    accAt m c t.val t.isLt y = countsArr (xarg m c) i := by
  obtain ⟨r, q, rfl⟩ : ∃ (r : Fin 32) (q : Fin 20), y = ix2 r q := ⟨y 0, y 1, eq_ix2 y⟩
  obtain ⟨b, p, rfl⟩ : ∃ (b : Fin 64) (p : Fin 20), i = ix2 b p := ⟨i 0, i 1, eq_ix2 i⟩
  obtain rfl : p = q := Fin.ext h1
  rw [countsArr_ix2]
  exact accAt_last m c t ht r p b h0

/-- A staging buffer `X` written back at point `t` is block `t` of an array `G` as soon as each of its entries is `G`
    at the entry's place: entry (y₀, y₁) of the block of grid row `t / 123` sits at (32·(t / 123) + y₀, y₁). -/
theorem cut_eq_read (t : Fin cfg0.N) (X : S32x20.Idx → EReal) (G : S64x20.Idx → EReal)
    (h : ∀ (y : S32x20.Idx) (i : S64x20.Idx), (i 0).val = 32 * (t.val / 123) + (y 0).val → (i 1).val = (y 1).val →
      X y = G i) :
    (cfg0.win 1).cut (grid0.coords t) X = ((cfg0.win 1).blk t).view.read (Elt Ideal) G := by
  obtain ⟨e0, e1⟩ := out_index t
  funext y
  show X ((cfg0.win 1).xinj (grid0.coords t) y) = G (((cfg0.win 1).blk t).view.emb y)
  refine h _ _ ?_ ?_
  · show win0_1.index t (0 : Fin 2) * 32 + 1 * (y 0).val = 32 * (t.val / 123) + (y 0).val
    rw [e0]; omega
  · show win0_1.index t (1 : Fin 2) * 20 + 1 * (y 1).val = (y 1).val
    rw [e1]; omega

/-- WHAT A WRITE-BACK WRITES: at the points that write the output block back, the block is that point's block of the
    histogram. -/
theorem flushed_eq (c : Dev nD) (t : Fin cfg0.N) (hf : (cfg0.win 1).flush t = true) :
    (dats (F := Ideal) m 0 c).flushed 1 t
      = ((cfg0.win 1).blk t).view.read (Elt Ideal) (countsArr (xarg m c)) := by
  have ht : t.val % 123 = 122 := (flush0_1 t).mp hf
  show (cfg0.win 1).cut (grid0.coords t) ((dats (F := Ideal) m 0 c).after 1 t) = _
  rw [after0_1]
  exact cut_eq_read t (accAt m c t.val t.isLt) (countsArr (xarg m c)) (point_eq m c t ht)

/-- An index of the result array is in point `t`'s block iff each coordinate is in the block's range on its axis. -/
theorem mem_blk (t : Fin cfg0.N) (i : S64x20.Idx) :
    i ∈ ((cfg0.win 1).blk t).view.set ↔ ∀ a : Fin 2, win0_1.index t a * S32x20.size a ≤ (i a).val
      ∧ (i a).val < win0_1.index t a * S32x20.size a + S32x20.size a := by
  show i ∈ ((View.whole main_v1).slice (win0_1.rect t)).set ↔ _
  rw [View.set_slice_whole, Rect.mem_set_unit]
  exact Iff.rfl

/-- Every entry of the result array is written back: sample `s` lies in the block of its grid row `s / 32`, which the
    row's last point writes. -/
theorem covered (i : S64x20.Idx) :
    ∃ t : Fin cfg0.N, (cfg0.win 1).flush t = true ∧ i ∈ ((cfg0.win 1).blk t).view.set := by
  have hN : cfg0.N = 246 := N_0
  have hi0 : (i 0).val < 64 := idx2_lt0 i
  have hi1 : (i 1).val < 20 := idx2_lt1 i
  obtain ⟨t, htv⟩ : ∃ t : Fin cfg0.N, t.val = 123 * ((i 0).val / 32) + 122 := ⟨⟨_, by omega⟩, rfl⟩
  obtain ⟨e0, e1⟩ := out_index t
  refine ⟨t, (flush0_1 t).mpr (by omega), ?_⟩
  rw [mem_blk]
  intro a
  match a with
  | ⟨0, _⟩ =>
    show win0_1.index t (0 : Fin 2) * 32 ≤ (i 0).val ∧ (i 0).val < win0_1.index t (0 : Fin 2) * 32 + 32
    rw [e0]; omega
  | ⟨1, _⟩ =>
    show win0_1.index t (1 : Fin 2) * 20 ≤ (i 1).val ∧ (i 1).val < win0_1.index t (1 : Fin 2) * 20 + 20
    rw [e1]; omega

end Counts

/-- After the last grid point the pipeline's output array is the histogram of the argument's scores. -/
theorem final_counts (c : Dev nD) :
    ((dats (F := Ideal) m 0 c).arrAt 1 cfg0.N : S64x20.Idx → EReal) = countsArr (m ((c.tc : Thread nD τ).loc main_arg0)) :=
  (dats (F := Ideal) m 0 c).arrAt_eq_of_cover 1 (countsArr (Counts.xarg m c)) (fun t hf => Counts.flushed_eq m c t hf)
    Counts.covered

end Cert.KernelIdeal.Hist

end
-- ==== Proof.Tail.lean ====
/-
  The entropy both programs take of the histogram, as one function.

  From the 64×20 histogram `A`: `p = A / 10⁶`; where `p > 0` the term `(−p) · (log (max p 10⁻³⁰) / log 2)`, elsewhere 0; the result
  is the sum of the 1280 terms. Both programs apply exactly these host operations to their histogram, so the certificate
  only ever needs that the two histograms are equal: the chain is carried as one function and never opened.
-/
import proofs.«107489_j73744588472820_1_alg».proof.Proof.Spec
import Idealize.ShloMosaic.PureOps.Ideal

noncomputable section

namespace Cert.Hist

open Idealize.ShloMosaic

abbrev S0 : Shape := ⟨0, ![]⟩

/-- The entropy of a histogram, as the host operations spell it. The three side conditions are those the operations
    take of the shapes; any proofs of them give the same function. -/
def tail (hb : S0.BroadcastsInDim SC (![] : Fin 0 → Fin SC.rank)) (hr : SC.ReducesTo [0, 1] S0) (h0 : 0 < S0.numel)
    (A : FVec Ideal SC .f32) : FVec Ideal S0 .f32 :=
  let p : FVec Ideal SC .f32 := Host.divf A (broadcastInDim SC ![] hb (constant S0 .f32 0x49742400#32))
  Host.reduceAdd
    (select (cmpf (F := Ideal) .ogt p (broadcastInDim SC ![] hb (constant S0 .f32 0x00000000#32)))
      (mulf (Host.negf p)
        (Host.divf (Host.log (maximumf p (broadcastInDim SC ![] hb (constant S0 .f32 0x0DA24260#32))))
          (broadcastInDim SC ![] hb (Host.log (constant S0 .f32 0x40000000#32)))))
      (broadcastInDim SC ![] hb (constant S0 .f32 0x00000000#32)))
    (constant S0 .f32 0x00000000#32) hr h0

end Cert.Hist

end
-- ==== Proof.KITail.lean ====
/-
  The kernel program's result is the entropy of the array its pipeline leaves: the host lines after the region are the shared tail.
-/
import proofs.«107489_j73744588472820_1_alg».proof.Proof.KIBody
import proofs.«107489_j73744588472820_1_alg».proof.Proof.Tail
import Idealize.ShloMosaic.Lib.StableHlo.Run

set_option maxRecDepth 16384

noncomputable section

namespace Cert.KernelIdeal.Hist

open Cert.KernelIdeal Cert.KernelIdeal.Gen Cert.Hist
open Idealize.ShloMosaic Idealize.ShloMosaic.TcCoe Idealize.SL.Sem Idealize.ShloMosaic.StableHlo

variable (m : (ℓ : Loc nD τ sig) → Buf (Elt Ideal) ℓ)

set_option maxHeartbeats 2000000 in
/-- After the host lines that follow the region, the result buffer holds the entropy of the pipeline's output array. -/
theorem kernel_tail (c : Dev nD) :
    Pipeline.afterTail₀ cfgs (dats (F := Ideal) m) 0 (V0 m) [hostOps1, hostOps1_1, hostOps1_2] c main_v15
      = tail bcast_S_S64x20 reducesTo_S64x20_S_d0_1 h_S_ ((dats (F := Ideal) m 0 c).arrAt 1 cfg0.N) := by
  unfold Pipeline.afterTail₀
  simp only [hostOps1, hostOps1_1, hostOps1_2, List.flatten_cons, List.flatten_nil, List.append_nil, List.cons_append,
    List.nil_append]
  after_results_simp
  have harr : Pipeline.withArrays (cfgs 0).spec c (V0 m c) (fun w => (dats (F := Ideal) m 0 c).arrAt w (cfgs 0).N)
      (Proc.devRef .tc main_v1) = (dats (F := Ideal) m 0 c).arrAt 1 cfg0.N :=
    Pipeline.withArrays_arr spec0 launch0.win.arr_inj c (V0 m c) (fun w => (dats (F := Ideal) m 0 c).arrAt w (cfgs 0).N) 1
  rw [harr]
  generalize (dats (F := Ideal) m 0 c).arrAt 1 cfg0.N = A
  simp only [TRef.ofBuf, TRef.toBuf, cast_eq]
  rfl

end Cert.KernelIdeal.Hist

end
-- ==== Proof.RefCounts.lean ====
/-
  What the reference's scatter-add leaves, reshaped: the histogram of the scores, when every score lies in [0, 1).
-/
import proofs.«107489_j73744588472820_1_alg».proof.Proof.RefRead
import proofs.«107489_j73744588472820_1_alg».proof.Proof.Spec
import Idealize.ShloMosaic.Lib.ValueIdx
import Idealize.ShloMosaic.Lib.Pipeline.Value
import Idealize.ShloMosaic.Lib.WordArith
import Idealize.ShloMosaic.Lib.IdealHost

noncomputable section

open scoped BigOperators

namespace Cert.ReferenceIdeal.RefValue

open Cert.ReferenceIdeal Cert.ReferenceIdeal.Gen Cert.Hist
open Idealize.ShloMosaic Idealize.ShloMosaic.ValueIdx

/-! ## Where an update lands -/

/-- The row of the scatter indices that update `j` reads: `(j, 0)`. -/
abbrev rowOf (j : S64000000.Idx) : S64000000x1.Idx := fun a => match a with
  | ⟨0, _⟩ => ⟨(j 0).val, (j 0).isLt⟩
  | ⟨1, _⟩ => ⟨0, Nat.one_pos⟩

/-- Update `j` lands on segment `i` exactly when its index word, read signed, is `i`: the one operand axis is an
    inserted window axis (window coordinate 0) and the start is the word itself, not clamped. -/
theorem resultIdx_eq_some_iff {w : Nat} (idx : IVec S64000000x1 w) (j : S64000000.Idx) (i : S1280.Idx) :
    scatter_S1280_S64000000x1_S64000000_n_0_0_1.resultIdx? j idx = some i ↔
      (idx (rowOf j)).toInt = ((i 0).val : Int) := by
  have hs : ∀ a, scatter_S1280_S64000000x1_S64000000_n_0_0_1.start j idx a = (idx (rowOf j)).toInt := by
    intro a
    obtain rfl : a = 0 := Subsingleton.elim _ _
    unfold ScatterDims.start
    rw [dif_pos (show (0 : Fin 1) ∈ scatter_S1280_S64000000x1_S64000000_n_0_0_1.scatterDimsToOperandDims from
      List.mem_singleton.mpr rfl)]
    have hsi : scatter_S1280_S64000000x1_S64000000_n_0_0_1.siIdx j
        ⟨List.idxOf (0 : Fin 1) scatter_S1280_S64000000x1_S64000000_n_0_0_1.scatterDimsToOperandDims,
          List.idxOf_lt_length_iff.2 (List.mem_singleton.mpr rfl)⟩ = rowOf j := by
      funext b; refine Fin.ext ?_
      match b with
      | ⟨0, _⟩ => rfl
      | ⟨1, _⟩ => rfl
    rw [hsi]
  have hw : ∀ a, scatter_S1280_S64000000x1_S64000000_n_0_0_1.window j a = 0 := by
    intro a
    have hk : scatter_S1280_S64000000x1_S64000000_n_0_0_1.sKept = [] := rfl
    unfold ScatterDims.window
    rw [dif_neg (by rw [hk]; exact List.not_mem_nil)]
  have hi : (i 0).val < 1280 := (i 0).isLt
  unfold ScatterDims.resultIdx?
  constructor
  · intro h
    split at h
    · rename_i hc
      have h0 := congrFun (Option.some.inj h) 0
      have hv := congrArg Fin.val h0
      have hc0 := (hc 0).1
      rw [hs, hw] at hc0
      simp only [hs, hw] at hv
      omega
    · exact absurd h (by simp)
  · intro h
    have hc : ∀ a, 0 ≤ scatter_S1280_S64000000x1_S64000000_n_0_0_1.start j idx a +
          ((scatter_S1280_S64000000x1_S64000000_n_0_0_1.window j a : Nat) : Int) ∧
        scatter_S1280_S64000000x1_S64000000_n_0_0_1.start j idx a +
          ((scatter_S1280_S64000000x1_S64000000_n_0_0_1.window j a : Nat) : Int) < S1280.size a := by
      intro a
      obtain rfl : a = 0 := Subsingleton.elim _ _
      rw [hs, hw, h]
      refine ⟨by omega, ?_⟩
      show ((i 0).val : Int) + ((0 : Nat) : Int) < ((1280 : Nat) : Int)
      omega
    rw [dif_pos hc]
    congr 1
    funext a
    obtain rfl : a = 0 := Subsingleton.elim _ _
    refine Fin.ext ?_
    show (scatter_S1280_S64000000x1_S64000000_n_0_0_1.start j idx 0 +
      ((scatter_S1280_S64000000x1_S64000000_n_0_0_1.window j 0 : Nat) : Int)).toNat = (i 0).val
    rw [hs, hw, h]
    omega

/-! ## The flat id of an update -/

/-- The flat id at `(b', l)`: twenty times the sample's number plus the score's bin, on 32-bit words. -/
theorem flatId_eq (x : (⟨S64x1000000, .f32⟩ : BufTy).Contents (Elt Ideal)) (p : S64x1000000.Idx) :
    ReadP.val_main_v9 (F := Ideal) x p = BitVec.ofNat 32 (p 0).val * 20#32 + bin (x p) := by
  rw [ReadP.val_main_v9_apply, ReadP.val_main_v8_apply, ReadP.val_main_v7_apply, ReadP.val_main_v5_apply,
    ReadP.val_main_v4_apply, ReadP.val_main_v6_apply, ReadP.val_main_c_apply, ReadP.val_main_v3_apply,
    ReadP.val_main_v2_apply, ReadP.val_main_v1_apply, ReadP.val_main_v0_apply, ReadP.val_main_cst_apply]
  rfl

/-- The constant `0x41A00000` is twenty. -/
theorem ofBits_twenty : Ideal.ofBits .f32 0x41A00000#32 = ((20 : ℝ) : EReal) := by
  simp [Ideal.ofBits, Ideal.ieee, -EReal.coe_mul]; norm_num

/-- A score in [0, 1) has its bin among 0..19: twenty times it lies in [0, 20), the floor is one of 0..19 and the
    conversion to a signed word clamps nothing. -/
theorem bin_of_unit (v : EReal) (h0 : 0 ≤ v) (h1 : v < 1) : ∃ k : Nat, k < 20 ∧ bin v = BitVec.ofNat 32 k := by
  have hbot : v ≠ ⊥ := fun h => by rw [h] at h0; exact absurd h0 (by simp)
  have htop : v ≠ ⊤ := ne_top_of_lt h1
  lift v to ℝ using ⟨htop, hbot⟩
  have r0 : (0 : ℝ) ≤ v := by exact_mod_cast h0
  have r1 : v < 1 := by exact_mod_cast h1
  have f0 : 0 ≤ ⌊v * 20⌋ := Int.floor_nonneg.mpr (by positivity)
  have f1 : ⌊v * 20⌋ < 20 := Int.floor_lt.mpr (by push_cast; linarith)
  refine ⟨⌊v * 20⌋.toNat, by omega, ?_⟩
  unfold bin
  rw [ofBits_twenty, ← EReal.coe_mul]
  show Ideal.fptosi 32 (((⌊v * 20⌋ : ℤ) : ℝ) : EReal) = _
  rw [Ideal.fptosi, Ideal.toIntClamped_coe, if_pos (by exact_mod_cast f0), Int.floor_intCast]
  generalize ⌊v * 20⌋ = m at f0 f1 ⊢
  obtain ⟨n, rfl⟩ := Int.eq_ofNat_of_zero_le f0
  rw [min_eq_right (by omega), max_eq_right (by omega), Int.toNat_natCast]
  exact BitVec.ofInt_natCast 32 n

/-- The flat id `20·b' + k` with `b' < 64` and `k < 20`, read signed, is that number: nothing wraps. -/
theorem toInt_flat (b' k : Nat) (hb : b' < 64) (hk : k < 20) :
    (BitVec.ofNat 32 b' * 20#32 + BitVec.ofNat 32 k).toInt = ((b' * 20 + k : Nat) : Int) := by
  have e1 := WordArith.toInt_ofNat_small b' (by omega)
  have e2 : (20#32).toInt = 20 := by decide
  have e3 := WordArith.toInt_ofNat_small k (by omega)
  have em : (BitVec.ofNat 32 b' * 20#32).toInt = (b' : Int) * 20 := by
    rw [WordArith.toInt_mul_of_bounds _ _ (by rw [e1, e2]; omega) (by rw [e1, e2]; omega), e1, e2]
  rw [WordArith.toInt_add_of_bounds _ _ (by rw [em, e3]; omega) (by rw [em, e3]; omega), em, e3]
  push_cast; ring

/-- The host's scatter-add at the ideal values, read at an element: the operand there plus the sum of the updates that
    land there. -/
theorem scatterAdd_apply {s si su : Shape} {w : Nat} {φ : FTy} (d : ScatterDims s si su) (x : FVec Ideal s φ)
    (idx : IVec si w) (upd : FVec Ideal su φ) (i : s.Idx) :
    Host.scatterAdd d x idx upd i =
      x i + ∑ j ∈ Finset.univ.filter (fun j => d.resultIdx? j idx = some i), upd j := rfl

/-! ## The scatter-add counts -/

/-- At `(b', l)` the flat id is segment `20·b + q` exactly when the sample is `b` and the score's bin is `q`:
    both `20·b' + k` and `20·b + q` have their last summand below twenty. -/
theorem flat_hits_iff (x : (⟨S64x1000000, .f32⟩ : BufTy).Contents (Elt Ideal)) (hx : ∀ i, (0 : EReal) ≤ x i ∧ x i < 1)
    (b' : Fin 64) (l : Fin 1000000) (b : Fin 64) (q : Fin 20) :
    (ReadP.val_main_v9 (F := Ideal) x (ix2 b' l)).toInt = ((b.val * 20 + q.val : Nat) : Int) ↔
      b' = b ∧ bin (x (ix2 b' l)) = BitVec.ofNat 32 q.val := by
  rw [flatId_eq]
  obtain ⟨k, hk, hb⟩ := bin_of_unit (x (ix2 b' l)) (hx _).1 (hx _).2
  rw [hb]
  show (BitVec.ofNat 32 b'.val * 20#32 + BitVec.ofNat 32 k).toInt = _ ↔ _
  rw [toInt_flat b'.val k b'.isLt hk]
  have hq := q.isLt
  constructor
  · intro h
    have h' : b'.val * 20 + k = b.val * 20 + q.val := by exact_mod_cast h
    refine ⟨Fin.ext (by omega), ?_⟩
    have hkq : k = q.val := by omega
    rw [hkq]
  · rintro ⟨rfl, h⟩
    have h2 := congrArg BitVec.toNat h
    rw [WordArith.toNat_ofNat_of_lt k (by omega), WordArith.toNat_ofNat_of_lt q.val (by omega)] at h2
    rw [h2]

/-- One update's contribution to segment `20·b + q`, as a function of its place `(b', l)` in the score array. -/
def hit (x : (⟨S64x1000000, .f32⟩ : BufTy).Contents (Elt Ideal)) (b : Fin 64) (q : Fin 20) (p : S64x1000000.Idx) : EReal :=
  if (ReadP.val_main_v9 (F := Ideal) x p).toInt = ((b.val * 20 + q.val : Nat) : Int) then 1 else 0

/-- The scatter-add read at segment `20·b + q`: zero plus a one for every update landing there; re-indexed by the
    reshape's bijection to `(b', l)`, only sample `b`'s row contributes, one for each score of bin `q`. -/
theorem ref_counts_at (x : (⟨S64x1000000, .f32⟩ : BufTy).Contents (Elt Ideal)) (hx : ∀ i, (0 : EReal) ≤ x i ∧ x i < 1)
    (b : Fin 64) (q : Fin 20) :
    ReadP.val_main_v15 (F := Ideal) x (ix2 b q) = counts x b q := by
  rw [ReadP.val_main_v15_apply]
  unfold ReadP.val_main_v14
  rw [scatterAdd_apply]
  have h12 : ReadP.val_main_v12 (F := Ideal) (ReadP.idx_main_v15 (ix2 b q)) = 0 := by
    rw [ReadP.val_main_v12_apply, ReadP.val_main_cst_1_apply]; exact Ideal.ofBits_zero_f32
  have h11 : ∀ j, ReadP.val_main_v11 (F := Ideal) j = 1 := by
    intro j; rw [ReadP.val_main_v11_apply, ReadP.val_main_cst_0_apply]; exact Ideal.ofBits_one_f32
  have hstep : ∀ j : S64000000.Idx,
      (if scatter_S1280_S64000000x1_S64000000_n_0_0_1.resultIdx? j (ReadP.val_main_v13 (F := Ideal) x) =
          some (ReadP.idx_main_v15 (ix2 b q)) then ReadP.val_main_v11 (F := Ideal) j else 0) =
        hit x b q (Shape.reshapeEquiv shapeCasts_S64x1000000_S64000000 j) := by
    intro j
    rw [h11]
    unfold hit
    refine if_congr ?_ rfl rfl
    rw [resultIdx_eq_some_iff, ReadP.val_main_v13_apply]
    have hj : ReadP.idx_main_v13 (rowOf j) = j := by
      funext a; obtain rfl : a = 0 := Subsingleton.elim _ _; rfl
    rw [hj]
    exact Iff.rfl
  rw [h12, zero_add, Finset.sum_filter]
  refine (Finset.sum_congr rfl (fun j _ => hstep j)).trans ?_
  refine (Equiv.sum_comp (Shape.reshapeEquiv shapeCasts_S64x1000000_S64000000) (hit x b q)).trans ?_
  rw [sum_idx2, Finset.sum_eq_single b]
  · unfold counts
    refine Finset.sum_congr rfl fun l _ => ?_
    unfold ind hit
    refine if_congr ?_ rfl rfl
    rw [flat_hits_iff x hx]
    exact ⟨fun h => h.2, fun h => ⟨rfl, h⟩⟩
  · intro b' _ hne
    refine Finset.sum_eq_zero fun l _ => ?_
    unfold hit
    rw [if_neg]
    rw [flat_hits_iff x hx]
    exact fun h => hne h.1
  · intro h; exact absurd (Finset.mem_univ b) h

/-- With every score in [0, 1) each flat id `20·b + bin` stays inside its own sample's twenty segments, so the
    scatter-add of ones counts, for segment `20·b + q`, exactly sample `b`'s scores of bin `q`. -/
theorem ref_counts (x : (⟨S64x1000000, .f32⟩ : BufTy).Contents (Elt Ideal)) (hx : ∀ i, (0 : EReal) ≤ x i ∧ x i < 1) :
    Cert.ReferenceIdeal.ReadP.val_main_v15 (F := Ideal) x = countsArr x := by
  funext i
  rw [eq_ix2 i]
  exact ref_counts_at x hx (i 0) (i 1)

end Cert.ReferenceIdeal.RefValue

end
-- ==== Proof.RefTail.lean ====
/-
  The reference's result is the entropy of its histogram: the operations after the reshape are the shared tail.
-/
import proofs.«107489_j73744588472820_1_alg».proof.Proof.RefRead
import proofs.«107489_j73744588472820_1_alg».proof.Proof.Tail

noncomputable section

namespace Cert.ReferenceIdeal.RefValue

open Cert.ReferenceIdeal Cert.ReferenceIdeal.Gen Cert.Hist
open Idealize.ShloMosaic

/-- The reference's last stage is the entropy of its (64, 20) stage. -/
theorem ref_tail (x : (⟨S64x1000000, .f32⟩ : BufTy).Contents (Elt Ideal)) :
    Cert.ReferenceIdeal.ReadP.val_main_v29 (F := Ideal) x
      = tail bcast_S_S64x20 reducesTo_S64x20_S_d0_1 h_S_ (Cert.ReferenceIdeal.ReadP.val_main_v15 (F := Ideal) x) := rfl

end Cert.ReferenceIdeal.RefValue

end
-- ==== Proof.PreRange.lean ====
/-
  The precondition, decoded: every score is at least 0 and below 1.
-/
import proofs.«107489_j73744588472820_1_alg».proof.Pre_finite_inputs
import proofs.«107489_j73744588472820_1_alg».proof.Proof.Gen.Pre_finite_inputs
import Idealize.ShloMosaic.PureOps.Ideal
import Idealize.ShloMosaic.Lib.ValueIdx
import Idealize.ShloMosaic.Lib.ReduceAll
import Idealize.ShloMosaic.Lib.IdealHost

noncomputable section

namespace Cert.Pre_finite_inputs.Range

open Cert.Pre_finite_inputs Cert.Pre_finite_inputs.Gen
open Idealize.ShloMosaic Idealize.ShloMosaic.ValueIdx

/-- The rank-0 shape has one index. -/
instance subsingleton_S_Idx : Subsingleton S_.Idx := ⟨fun a b => funext fun d => d.elim0⟩

/-- A one-bit word made from a decision is 1 exactly when the decision holds. -/
theorem ofBool_decide_eq_one {p : Prop} [Decidable p] (e : BitVec.ofBool (decide p) = 1#1) : p := by
  by_cases hp : p
  · exact hp
  · rw [decide_eq_false hp] at e
    exact absurd e (by decide)

/-- The ordered "at least" comparison that came out 1 says the right operand is at most the left. -/
theorem le_of_cmp_oge {a b : EReal} (e : Ideal.cmp .oge a b = 1#1) : b ≤ a :=
  ofBool_decide_eq_one (p := b ≤ a) e

/-- The ordered "less than" comparison that came out 1 says the left operand is below the right. -/
theorem lt_of_cmp_olt {a b : EReal} (e : Ideal.cmp .olt a b = 1#1) : a < b :=
  ofBool_decide_eq_one (p := a < b) e

/-- If the printed predicate is all ones on an array of extended reals, every entry lies in [0, 1). -/
theorem range_of_pre (x : FVec Ideal S64x1000000 .f32) (h : Cert.Pre_finite_inputs.fn (F := Ideal) x = fun _ => 1#1) :
    ∀ i, (0 : EReal) ≤ x i ∧ x i < 1 := by
  intro i
  have h0 := congrFun h ValueIdx.ix0
  unfold Cert.Pre_finite_inputs.fn at h0
  dsimp only at h0
  -- the outer conjunction, then the inner one
  obtain ⟨h36, h10⟩ := IntOp.andi_eq_one.1 h0
  obtain ⟨_, h6⟩ := IntOp.andi_eq_one.1 h36
  -- each all-reduction that is 1 had a 1 at the index i
  have e6 := Host.reduce_andi_all _ _ _ _ _ h6 i
  have e10 := Host.reduce_andi_all _ _ _ _ _ h10 i
  -- the compared words at i: the entry against the broadcast literal
  rw [ValueIdx.cmpf_apply, ValueIdx.broadcastInDim_scalar_apply, ValueIdx.constant_apply, Ideal.ofBits_zero_f32] at e6
  rw [ValueIdx.cmpf_apply, ValueIdx.broadcastInDim_scalar_apply, ValueIdx.constant_apply, Ideal.ofBits_one_f32] at e10
  exact ⟨le_of_cmp_oge e6, lt_of_cmp_olt e10⟩

end Cert.Pre_finite_inputs.Range

end
-- ==== Proof.lean ====
/-
  The certificate of the histogram-entropy kernel against its reference.

  Scores `x : f32[64, 1000000]`, by contract in [0, 1). A score's bin is `⌊20·x⌋`; `counts[b, q]` is the number of sample
  `b`'s scores of bin `q < 20`; the result is the sum over (b, q) of the entropy terms of `p = counts / 10⁶`
  (`−p · log(max p 10⁻³⁰) / log 2` where `p > 0`, else 0).

  The kernel widens `x` by 7,616 columns of −1 (bin −20: counted in no bin), walks a 2 × 123 grid over (32, 8192) blocks,
  builds each block's (32, 20) histogram from twenty equality masks and lane sums, stores it at a row's first point and
  adds it to the staged output afterwards; the output block is written back after a row's last point. Over the extended
  reals every count is an exact sum of ones and zeros, in whatever order and grouping, so the array the pipeline leaves
  is `counts` (Proof/KICounts.lean, over the run of Proof/KIBody.lean); this needs nothing of the scores.
  The reference adds a one at flat id `20·b + bin` into 1280 segments. With every score in [0, 1) each bin is in 0..19, the
  flat id stays in its own sample's twenty segments, and segment `20·b + q` collects exactly sample `b`'s scores of bin `q`
  (Proof/RefCounts.lean); outside [0, 1) a flat id can land in a neighbour's segments, which is why the claim carries
  that contract (Proof/PreRange.lean decodes it from the printed predicate).
  Both programs then apply the same host operations to their histogram: one function, never opened (Proof/Tail.lean).

  The three frames: the two kernel programs run by the body's two triples at every grid point (the same text at both float
  instances); the reference's frame is its run with the result dropped. The ideal pass rewrote nothing: `preserves` is `True`.
-/
import proofs.«107489_j73744588472820_1_alg».proof.Defs
import proofs.«107489_j73744588472820_1_alg».proof.Proof.Gen.Kernel
import proofs.«107489_j73744588472820_1_alg».proof.Proof.Gen.KernelIdeal
import proofs.«107489_j73744588472820_1_alg».proof.Proof.Gen.ReferenceIdeal
import proofs.«107489_j73744588472820_1_alg».proof.Proof.Gen.Pre_finite_inputs
import proofs.«107489_j73744588472820_1_alg».proof.Proof.RefRun
import proofs.«107489_j73744588472820_1_alg».proof.Proof.RefRead
import proofs.«107489_j73744588472820_1_alg».proof.Proof.KBody
import proofs.«107489_j73744588472820_1_alg».proof.Proof.KIBody
import proofs.«107489_j73744588472820_1_alg».proof.Proof.KICounts
import proofs.«107489_j73744588472820_1_alg».proof.Proof.KITail
import proofs.«107489_j73744588472820_1_alg».proof.Proof.RefCounts
import proofs.«107489_j73744588472820_1_alg».proof.Proof.RefTail
import proofs.«107489_j73744588472820_1_alg».proof.Proof.PreRange
import Idealize.ShloMosaic.Adequacy
import Idealize.ShloMosaic.Init

noncomputable section

namespace Cert.Proof

open Idealize.ShloMosaic Idealize.ShloMosaic.TcCoe Idealize.SL.Sem

/-- The word-level kernel program runs and leaves its argument unchanged. -/
theorem frame_k : Cert.frame_Kernel := fun m ρ _ => Cert.Kernel.Hist.frame (F := Bits) m ρ

/-- So does the idealized kernel program: the same run at the extended reals. -/
theorem frame_ki : Cert.frame_KernelIdeal := fun m ρ _ => Cert.KernelIdeal.Hist.frame (F := Ideal) m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end at the entropy of the scores' histogram. -/
theorem algebraic : Cert.algebraic_KernelIdeal_ReferenceIdeal := by
  intro m ρ m' ρ' hpre hagree
  refine ⟨fun c => Cert.Hist.tail Cert.KernelIdeal.Gen.bcast_S_S64x20 Cert.KernelIdeal.Gen.reducesTo_S64x20_S_d0_1
      Cert.KernelIdeal.Gen.h_S_
      (Cert.Hist.countsArr (m ((c.tc : Thread Cert.KernelIdeal.nD Cert.KernelIdeal.τ).loc Cert.KernelIdeal.main_arg0))), ?_, ?_⟩
  · -- the kernel: the result buffer after the host tail, over the array the pipeline leaves
    refine (θ_run Cert.KernelIdeal.defs _ _).mono (fun r h c => ⟨?_, ?_⟩) (Cert.KernelIdeal.Hist.run_main (F := Ideal) m ρ)
    · exact (((h c).2 Cert.KernelIdeal.main_v15 (Pipeline.mem_restRefs_of _ (by decide) (by decide))).trans
        (Cert.KernelIdeal.Hist.kernel_tail m c)).trans (congrArg _ (Cert.KernelIdeal.Hist.final_counts m c))
    · exact ((h c).2 Cert.KernelIdeal.main_arg0 (Pipeline.mem_restRefs_of _ (by decide) (by decide))).trans
        (Cert.KernelIdeal.Gen.W_main_arg0 m (Cert.KernelIdeal.Hist.dats m) c)
  · -- the reference: its run's term is the tail of its histogram stage, which under the contract is `counts`
    refine (θ_run Cert.ReferenceIdeal.defs _ _).mono (fun r h c => ⟨?_, (h c).2⟩)
      (Cert.ReferenceIdeal.ValueP.run (F := Ideal) m' ρ')
    refine (h c).1.trans ?_
    refine (Cert.ReferenceIdeal.ReadP.val_main_v29_eq _).trans ?_
    refine (Cert.ReferenceIdeal.RefValue.ref_tail _).trans ?_
    rw [hagree c, Cert.ReferenceIdeal.RefValue.ref_counts _ (Cert.Pre_finite_inputs.Range.range_of_pre _ (hpre c))]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
